-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536x1 : Shape := ⟨3, ![512, 65536, 1]⟩
abbrev S512x30x17x2 : Shape := ⟨4, ![512, 30, 17, 2]⟩
abbrev S_ : Shape := ⟨0, ![]⟩
abbrev S512x30x17x1 : Shape := ⟨4, ![512, 30, 17, 1]⟩

class Facts : Prop where
  bcast_S_S512x65536x1 : S_.BroadcastsInDim S512x65536x1 (![] : Fin 0 → Fin S512x65536x1.rank)
  reducesTo_S512x65536x1_S_d0_1_2 : S512x65536x1.ReducesTo [0, 1, 2] S_
  h_S_ : 0 < S_.numel
  slices_S512x30x17x2_S512x30x17x1_0_0_0_0 : S512x30x17x2.Slices ![0, 0, 0, 0] S512x30x17x1
  bcast_S_S512x30x17x1 : S_.BroadcastsInDim S512x30x17x1 (![] : Fin 0 → Fin S512x30x17x1.rank)
  reducesTo_S512x30x17x1_S_d0_1_2_3 : S512x30x17x1.ReducesTo [0, 1, 2, 3] S_

variable [Facts]

def fn {F : FTy → Type} [FloatOps F] (main_arg0 : FVec F S512x65536x1 .f32) (main_arg1 : IVec S512x30x17x2 32) : IVec S_ 1 :=
  let main_v0 : FVec F S512x65536x1 .f32 := Host.absf main_arg0
  let main_cst : FVec F S_ .f32 := constant S_ .f32 0x7F800000#32
  let main_v1 : FVec F S512x65536x1 .f32 := broadcastInDim S512x65536x1 ![] bcast_S_S512x65536x1 main_cst
  let main_v2 : IVec S512x65536x1 1 := cmpf .olt main_v0 main_v1
  let main_c : IVec S_ 1 := constantI S_ 1 1#1
  let main_v3 : IVec S_ 1 := (fun x v => Host.reduce IntOp.andi x v reducesTo_S512x65536x1_S_d0_1_2 h_S_) main_v2 main_c
  let main_v4 : IVec S512x30x17x1 32 := (extractStridedSlice S512x30x17x1 ![0, 0, 0, 0] · slices_S512x30x17x2_S512x30x17x1_0_0_0_0) main_arg1
  let main_c_0 : IVec S_ 32 := constantI S_ 32 0#32
  let main_v5 : IVec S512x30x17x1 32 := broadcastInDim S512x30x17x1 ![] bcast_S_S512x30x17x1 main_c_0
  let main_v6 : IVec S512x30x17x1 1 := cmpi .sge main_v4 main_v5
  let main_v7 : IVec S512x30x17x1 32 := (extractStridedSlice S512x30x17x1 ![0, 0, 0, 0] · slices_S512x30x17x2_S512x30x17x1_0_0_0_0) main_arg1
  let main_c_1 : IVec S_ 32 := constantI S_ 32 65536#32
  let main_v8 : IVec S512x30x17x1 32 := broadcastInDim S512x30x17x1 ![] bcast_S_S512x30x17x1 main_c_1
  let main_v9 : IVec S512x30x17x1 1 := cmpi .slt main_v7 main_v8
  let main_v10 : IVec S512x30x17x1 1 := andi main_v6 main_v9
  let main_c_2 : IVec S_ 1 := constantI S_ 1 1#1
  let main_v11 : IVec S_ 1 := (fun x v => Host.reduce IntOp.andi x v reducesTo_S512x30x17x1_S_d0_1_2_3 h_S_) main_v10 main_c_2
  let main_v12 : IVec S_ 1 := andi main_v3 main_v11
  main_v12
-- ==== Kernel.lean ====
abbrev S512x65536x1 : Shape := ⟨3, ![512, 65536, 1]⟩
abbrev S512x30x17x2 : Shape := ⟨4, ![512, 30, 17, 2]⟩
abbrev S512x65536 : Shape := ⟨2, ![512, 65536]⟩
abbrev S512x256x256 : Shape := ⟨3, ![512, 256, 256]⟩
abbrev S512x30x17x1 : Shape := ⟨4, ![512, 30, 17, 1]⟩
abbrev S512x30x17 : Shape := ⟨3, ![512, 30, 17]⟩
abbrev S512x510 : Shape := ⟨2, ![512, 510]⟩
abbrev S_ : Shape := ⟨0, ![]⟩
abbrev S512x2 : Shape := ⟨2, ![512, 2]⟩
abbrev S8x256x256 : Shape := ⟨3, ![8, 256, 256]⟩
abbrev S8x510 : Shape := ⟨2, ![8, 510]⟩
abbrev S8x2 : Shape := ⟨2, ![8, 2]⟩
abbrev S1x1x256 : Shape := ⟨3, ![1, 1, 256]⟩
abbrev S8x510x1 : Shape := ⟨3, ![8, 510, 1]⟩
abbrev S8x510x256 : Shape := ⟨3, ![8, 510, 256]⟩
abbrev S8x30x17 : Shape := ⟨3, ![8, 30, 17]⟩
abbrev S8x30 : Shape := ⟨2, ![8, 30]⟩
abbrev S8x30x1 : Shape := ⟨3, ![8, 30, 1]⟩
abbrev S8 : Shape := ⟨1, ![8]⟩
abbrev S8x1x30 : Shape := ⟨3, ![8, 1, 30]⟩
abbrev S8x30x30 : Shape := ⟨3, ![8, 30, 30]⟩
abbrev S1x30x30 : Shape := ⟨3, ![1, 30, 30]⟩
abbrev S8x1 : Shape := ⟨2, ![8, 1]⟩

abbrev nBuf : Space → Nat
  | .hbm => 55
  | .vmem => 10
  | .smem => 0
  | _ => 0

abbrev bufTy : (tb : Table) → Fin (tcTables nBuf tb) → BufTy
  | .hbm, ⟨0, _⟩ => ⟨S512x65536x1, .f32⟩
  | .hbm, ⟨1, _⟩ => ⟨S512x30x17x2, .i32⟩
  | .hbm, ⟨2, _⟩ => ⟨S512x65536, .f32⟩
  | .hbm, ⟨3, _⟩ => ⟨S512x256x256, .f32⟩
  | .hbm, ⟨4, _⟩ => ⟨S512x30x17x1, .i32⟩
  | .hbm, ⟨5, _⟩ => ⟨S512x30x17, .i32⟩
  | .hbm, ⟨6, _⟩ => ⟨S512x510, .i32⟩
  | .hbm, ⟨7, _⟩ => ⟨S512x30x17x1, .i32⟩
  | .hbm, ⟨8, _⟩ => ⟨S512x30x17, .i32⟩
  | .hbm, ⟨9, _⟩ => ⟨S_, .i32⟩
  | .hbm, ⟨10, _⟩ => ⟨S512x30x17, .i32⟩
  | .hbm, ⟨11, _⟩ => ⟨S512x30x17, .i1⟩
  | .hbm, ⟨12, _⟩ => ⟨S512x30x17, .f32⟩
  | .hbm, ⟨13, _⟩ => ⟨S512x510, .f32⟩
  | .hbm, ⟨14, _⟩ => ⟨S_, .i32⟩
  | .hbm, ⟨15, _⟩ => ⟨S_, .i32⟩
  | .hbm, ⟨16, _⟩ => ⟨S512x510, .i32⟩
  | .hbm, ⟨17, _⟩ => ⟨S512x510, .i32⟩
  | .hbm, ⟨18, _⟩ => ⟨S512x510, .i32⟩
  | .hbm, ⟨19, _⟩ => ⟨S_, .i32⟩
  | .hbm, ⟨20, _⟩ => ⟨S512x510, .i32⟩
  | .hbm, ⟨21, _⟩ => ⟨S512x510, .i1⟩
  | .hbm, ⟨22, _⟩ => ⟨S512x510, .i32⟩
  | .hbm, ⟨23, _⟩ => ⟨S512x510, .i32⟩
  | .hbm, ⟨24, _⟩ => ⟨S_, .i32⟩
  | .hbm, ⟨25, _⟩ => ⟨S512x510, .i32⟩
  | .hbm, ⟨26, _⟩ => ⟨S512x510, .i1⟩
  | .hbm, ⟨27, _⟩ => ⟨S512x510, .i1⟩
  | .hbm, ⟨28, _⟩ => ⟨S_, .i32⟩
  | .hbm, ⟨29, _⟩ => ⟨S512x510, .i32⟩
  | .hbm, ⟨30, _⟩ => ⟨S512x510, .i32⟩
  | .hbm, ⟨31, _⟩ => ⟨S512x510, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S512x510, .i32⟩
  | .hbm, ⟨39, _⟩ => ⟨S512x510, .i32⟩
  | .hbm, ⟨40, _⟩ => ⟨S_, .i32⟩
  | .hbm, ⟨41, _⟩ => ⟨S512x510, .i32⟩
  | .hbm, ⟨42, _⟩ => ⟨S512x510, .i1⟩
  | .hbm, ⟨43, _⟩ => ⟨S_, .i32⟩
  | .hbm, ⟨44, _⟩ => ⟨S512x510, .i32⟩
  | .hbm, ⟨45, _⟩ => ⟨S512x510, .i1⟩
  | .hbm, ⟨46, _⟩ => ⟨S_, .i32⟩
  | .hbm, ⟨47, _⟩ => ⟨S_, .i1⟩
  | .hbm, ⟨48, _⟩ => ⟨S512x510, .i1⟩
  | .hbm, ⟨49, _⟩ => ⟨S512x510, .i1⟩
  | .hbm, ⟨50, _⟩ => ⟨S512x510, .i1⟩
  | .hbm, ⟨51, _⟩ => ⟨S512x510, .i32⟩
  | .hbm, ⟨52, _⟩ => ⟨S512x510, .i32⟩
  | .hbm, ⟨53, _⟩ => ⟨S512x510, .i32⟩
  | .hbm, ⟨54, _⟩ => ⟨S512x2, .f32⟩
  | .local _ .vmem, ⟨0, _⟩ => ⟨S8x256x256, .f32⟩
  | .local _ .vmem, ⟨1, _⟩ => ⟨S8x256x256, .f32⟩
  | .local _ .vmem, ⟨2, _⟩ => ⟨S8x510, .i32⟩
  | .local _ .vmem, ⟨3, _⟩ => ⟨S8x510, .i32⟩
  | .local _ .vmem, ⟨4, _⟩ => ⟨S8x510, .i32⟩
  | .local _ .vmem, ⟨5, _⟩ => ⟨S8x510, .i32⟩
  | .local _ .vmem, ⟨6, _⟩ => ⟨S8x510, .f32⟩
  | .local _ .vmem, ⟨7, _⟩ => ⟨S8x510, .f32⟩
  | .local _ .vmem, ⟨8, _⟩ => ⟨S8x2, .f32⟩
  | .local _ .vmem, ⟨9, _⟩ => ⟨S8x2, .f32⟩
  | _, _ => ⟨S512x65536x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_c : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_c_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_v11 : Ref sig .tc := ⟨.hbm, 31, rfl⟩
abbrev main_call0_c_1 : Ref sig .tc := ⟨.hbm, 32, rfl⟩
abbrev main_call0_call1_v0 : Ref sig .tc := ⟨.hbm, 33, rfl⟩
abbrev main_call0_call1_c : Ref sig .tc := ⟨.hbm, 34, rfl⟩
abbrev main_call0_call1_v1 : Ref sig .tc := ⟨.hbm, 35, rfl⟩
abbrev main_call0_call1_c_0 : Ref sig .tc := ⟨.hbm, 36, rfl⟩
abbrev main_call0_call1_v2 : Ref sig .tc := ⟨.hbm, 37, rfl⟩
abbrev main_call0_call1_v3 : Ref sig .tc := ⟨.hbm, 38, rfl⟩
abbrev main_call0_call1_v4 : Ref sig .tc := ⟨.hbm, 39, rfl⟩
abbrev main_call0_call1_c_1 : Ref sig .tc := ⟨.hbm, 40, rfl⟩
abbrev main_call0_call1_v5 : Ref sig .tc := ⟨.hbm, 41, rfl⟩
abbrev main_call0_call1_v6 : Ref sig .tc := ⟨.hbm, 42, rfl⟩
abbrev main_call0_call1_c_2 : Ref sig .tc := ⟨.hbm, 43, rfl⟩
abbrev main_call0_call1_v7 : Ref sig .tc := ⟨.hbm, 44, rfl⟩
abbrev main_call0_call1_v8 : Ref sig .tc := ⟨.hbm, 45, rfl⟩
abbrev main_call0_call1_c_3 : Ref sig .tc := ⟨.hbm, 46, rfl⟩
abbrev main_call0_call1_v9 : Ref sig .tc := ⟨.hbm, 47, rfl⟩
abbrev main_call0_call1_v10 : Ref sig .tc := ⟨.hbm, 48, rfl⟩
abbrev main_call0_call1_v11 : Ref sig .tc := ⟨.hbm, 49, rfl⟩
abbrev main_call0_call1_v12 : Ref sig .tc := ⟨.hbm, 50, rfl⟩
abbrev main_call0_call1_v13 : Ref sig .tc := ⟨.hbm, 51, rfl⟩
abbrev main_call0_call1_v14 : Ref sig .tc := ⟨.hbm, 52, rfl⟩
abbrev main_call0_v12 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x510 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x510 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x510 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512x65536x1_S512x65536 : S512x65536x1.ShapeCasts S512x65536
  shapeCasts_S512x65536_S512x256x256 : S512x65536.ShapeCasts S512x256x256
  slices_S512x30x17x2_S512x30x17x1_0_0_0_0 : S512x30x17x2.Slices ![0, 0, 0, 0] S512x30x17x1
  shapeCasts_S512x30x17x1_S512x30x17 : S512x30x17x1.ShapeCasts S512x30x17
  shapeCasts_S512x30x17_S512x510 : S512x30x17.ShapeCasts S512x510
  slices_S512x30x17x2_S512x30x17x1_0_0_0_1 : S512x30x17x2.Slices ![0, 0, 0, 1] S512x30x17x1
  bcast_S_S512x30x17 : S_.BroadcastsInDim S512x30x17 (![] : Fin 0 → Fin S512x30x17.rank)
  bcast_S_S512x510 : S_.BroadcastsInDim S512x510 (![] : Fin 0 → Fin S512x510.rank)
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S8x510_S8x510_0_0 : ∀ a, (![0, 0] : Fin 2 → Nat) a + S8x510.size a ≤ S8x510.size a
  h_S8x510 : 0 < S8x510.numel
  shapeCasts_S8x510_S8x510 : S8x510.ShapeCasts S8x510
  iota_S1x1x256_d2_w32 : S1x1x256.Iotas .tc 32 [2]
  shapeCasts_S8x510_S8x510x1 : S8x510.ShapeCasts S8x510x1
  broadcasts_S8x510x1_S8x510x256 : S8x510x1.Broadcasts S8x510x256
  broadcasts_S1x1x256_S8x510x256 : S1x1x256.Broadcasts S8x510x256
  natLt_1_32 : 1 < 32
  reduces_S8x510x256_S8x510 : S8x510x256.Reduces [2] S8x510
  shapeCasts_S8x510_S8x30x17 : S8x510.ShapeCasts S8x30x17
  reduces_S8x30x17_S8x30 : S8x30x17.Reduces [2] S8x30
  shapeCasts_S8x30_S8x30x1 : S8x30.ShapeCasts S8x30x1
  broadcasts_S8x30x1_S8x30x17 : S8x30x1.Broadcasts S8x30x17
  reduces_S8x30_S8 : S8x30.Reduces [1] S8
  shapeCasts_S8x30_S8x1x30 : S8x30.ShapeCasts S8x1x30
  broadcasts_S8x30x1_S8x30x30 : S8x30x1.Broadcasts S8x30x30
  broadcasts_S8x1x30_S8x30x30 : S8x1x30.Broadcasts S8x30x30
  iota_S1x30x30_d1_w32 : S1x30x30.Iotas .tc 32 [1]
  iota_S1x30x30_d2_w32 : S1x30x30.Iotas .tc 32 [2]
  broadcasts_S1x30x30_S8x30x30 : S1x30x30.Broadcasts S8x30x30
  reduces_S8x30x30_S8x30 : S8x30x30.Reduces [2] S8x30
  shapeCasts_S8_S8x1 : S8.ShapeCasts S8x1
  concatenates_S8x1_S8x1_S8x2_d1 : Shape.Concatenates [S8x1, S8x1] S8x2 1
  inb_S8x2_S8x2_0_0 : ∀ a, (![0, 0] : Fin 2 → Nat) a + S8x2.size a ≤ S8x2.size a
  h_S8x2 : 0 < S8x2.numel
  dot_S8x510x256_S8x256x256_S8x510x256_2_1_1_2_0_0_wf : DotDims.WF S8x510x256 S8x256x256 S8x510x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S512x256x256.size a
  hwx0_0 : ∀ i : grid0.Coords, EltTy.bits .f32 = 32 ∨ (Rect.block (s := S512x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x510.size a ≤ S512x510.size a
  hwx0_1 : ∀ i : grid0.Coords, EltTy.bits .i32 = 32 ∨ (Rect.block (s := S512x510) S8x510.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x510.size a ≤ S512x510.size a
  hwx0_2 : ∀ i : grid0.Coords, EltTy.bits .i32 = 32 ∨ (Rect.block (s := S512x510) S8x510.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x510.size a ≤ S512x510.size a
  hwx0_3 : ∀ i : grid0.Coords, EltTy.bits .f32 = 32 ∨ (Rect.block (s := S512x510) S8x510.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2.size a ≤ S512x2.size a
  hwx0_4 : ∀ i : grid0.Coords, EltTy.bits .f32 = 32 ∨ (Rect.block (s := S512x2) S8x2.size (cc0_transform_4 i) (hinb0_4 i)).WholeWords (EltTy.packing .f32)

variable [Facts₀]

def dot_S8x510x256_S8x256x256_S8x510x256_2_1_1_2_0_0 : DotDims S8x510x256 S8x256x256 S8x510x256 where
  lhsContracting := [2]
  rhsContracting := [1]
  lhsNonContracting := [1]
  rhsNonContracting := [2]
  lhsBatch := [0]
  rhsBatch := [0]
  wf := dot_S8x510x256_S8x256x256_S8x510x256_2_1_1_2_0_0_wf

abbrev win0_0 : Pipeline.Window sig grid0 :=
  Pipeline.Window.ofSpec (Memref.whole main_call0_v1) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S8x510.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S8x510.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S8x510.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x65536x1 : Shape := ⟨3, ![512, 65536, 1]⟩
abbrev S512x30x17x2 : Shape := ⟨4, ![512, 30, 17, 2]⟩
abbrev S512x30x17x1 : Shape := ⟨4, ![512, 30, 17, 1]⟩
abbrev S512x30x17 : Shape := ⟨3, ![512, 30, 17]⟩
abbrev S_ : Shape := ⟨0, ![]⟩
abbrev S512x65536 : Shape := ⟨2, ![512, 65536]⟩
abbrev S512x510 : Shape := ⟨2, ![512, 510]⟩
abbrev S512x510x1 : Shape := ⟨3, ![512, 510, 1]⟩
abbrev S1 : Shape := ⟨1, ![1]⟩
abbrev S1x1x1 : Shape := ⟨3, ![1, 1, 1]⟩
abbrev S512x30 : Shape := ⟨2, ![512, 30]⟩
abbrev S512x30x1 : Shape := ⟨3, ![512, 30, 1]⟩
abbrev S512 : Shape := ⟨1, ![512]⟩
abbrev S512x1x30 : Shape := ⟨3, ![512, 1, 30]⟩
abbrev S512x30x30 : Shape := ⟨3, ![512, 30, 30]⟩
abbrev S30x30 : Shape := ⟨2, ![30, 30]⟩
abbrev S1x30x30 : Shape := ⟨3, ![1, 30, 30]⟩
abbrev S512x1 : Shape := ⟨2, ![512, 1]⟩
abbrev S512x2 : Shape := ⟨2, ![512, 2]⟩

abbrev nBuf : Space → Nat
  | .hbm => 123
  | .vmem => 0
  | .smem => 0
  | _ => 0

abbrev bufTy : (tb : Table) → Fin (tcTables nBuf tb) → BufTy
  | .hbm, ⟨0, _⟩ => ⟨S512x65536x1, .f32⟩
  | .hbm, ⟨1, _⟩ => ⟨S512x30x17x2, .i32⟩
  | .hbm, ⟨2, _⟩ => ⟨S512x30x17x1, .i32⟩
  | .hbm, ⟨3, _⟩ => ⟨S512x30x17, .i32⟩
  | .hbm, ⟨4, _⟩ => ⟨S512x30x17x1, .i32⟩
  | .hbm, ⟨5, _⟩ => ⟨S512x30x17, .i32⟩
  | .hbm, ⟨6, _⟩ => ⟨S_, .i32⟩
  | .hbm, ⟨7, _⟩ => ⟨S512x30x17, .i32⟩
  | .hbm, ⟨8, _⟩ => ⟨S512x30x17, .i1⟩
  | .hbm, ⟨9, _⟩ => ⟨S512x30x17, .f32⟩
  | .hbm, ⟨10, _⟩ => ⟨S512x65536, .f32⟩
  | .hbm, ⟨11, _⟩ => ⟨S512x510, .i32⟩
  | .hbm, ⟨12, _⟩ => ⟨S_, .i32⟩
  | .hbm, ⟨13, _⟩ => ⟨S512x510, .i32⟩
  | .hbm, ⟨14, _⟩ => ⟨S512x510, .i1⟩
  | .hbm, ⟨15, _⟩ => ⟨S_, .i32⟩
  | .hbm, ⟨16, _⟩ => ⟨S512x510, .i32⟩
  | .hbm, ⟨17, _⟩ => ⟨S512x510, .i32⟩
  | .hbm, ⟨18, _⟩ => ⟨S512x510, .i32⟩
  | .hbm, ⟨19, _⟩ => ⟨S512x510x1, .i32⟩
  | .hbm, ⟨20, _⟩ => ⟨S1, .i32⟩
  | .hbm, ⟨21, _⟩ => ⟨S_, .i32⟩
  | .hbm, ⟨22, _⟩ => ⟨S512x510x1, .i32⟩
  | .hbm, ⟨23, _⟩ => ⟨S512x510x1, .i1⟩
  | .hbm, ⟨24, _⟩ => ⟨S1x1x1, .i32⟩
  | .hbm, ⟨25, _⟩ => ⟨S512x510x1, .i32⟩
  | .hbm, ⟨26, _⟩ => ⟨S512x510x1, .i1⟩
  | .hbm, ⟨27, _⟩ => ⟨S512x510x1, .i1⟩
  | .hbm, ⟨28, _⟩ => ⟨S_, .i1⟩
  | .hbm, ⟨29, _⟩ => ⟨S512x510, .i1⟩
  | .hbm, ⟨30, _⟩ => ⟨S512x510, .f32⟩
  | .hbm, ⟨31, _⟩ => ⟨S_, .f32⟩
  | .hbm, ⟨32, _⟩ => ⟨S512x510, .f32⟩
  | .hbm, ⟨33, _⟩ => ⟨S512x510, .f32⟩
  | .hbm, ⟨34, _⟩ => ⟨S512x30x17, .f32⟩
  | .hbm, ⟨35, _⟩ => ⟨S_, .f32⟩
  | .hbm, ⟨36, _⟩ => ⟨S512x30, .f32⟩
  | .hbm, ⟨37, _⟩ => ⟨S_, .f32⟩
  | .hbm, ⟨38, _⟩ => ⟨S512x30, .f32⟩
  | .hbm, ⟨39, _⟩ => ⟨S512x30, .f32⟩
  | .hbm, ⟨40, _⟩ => ⟨S512x30x17, .f32⟩
  | .hbm, ⟨41, _⟩ => ⟨S_, .f32⟩
  | .hbm, ⟨42, _⟩ => ⟨S512x30, .f32⟩
  | .hbm, ⟨43, _⟩ => ⟨S512x30, .f32⟩
  | .hbm, ⟨44, _⟩ => ⟨S512x30x1, .f32⟩
  | .hbm, ⟨45, _⟩ => ⟨S512x30x17, .f32⟩
  | .hbm, ⟨46, _⟩ => ⟨S512x30x17, .f32⟩
  | .hbm, ⟨47, _⟩ => ⟨S512x30x17, .f32⟩
  | .hbm, ⟨48, _⟩ => ⟨S512x30x17, .f32⟩
  | .hbm, ⟨49, _⟩ => ⟨S_, .f32⟩
  | .hbm, ⟨50, _⟩ => ⟨S512x30, .f32⟩
  | .hbm, ⟨51, _⟩ => ⟨S512x30, .f32⟩
  | .hbm, ⟨52, _⟩ => ⟨S_, .f32⟩
  | .hbm, ⟨53, _⟩ => ⟨S512x30, .f32⟩
  | .hbm, ⟨54, _⟩ => ⟨S512x30, .i1⟩
  | .hbm, ⟨55, _⟩ => ⟨S512x30, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S512, .f32⟩
  | .hbm, ⟨60, _⟩ => ⟨S512, .i1⟩
  | .hbm, ⟨61, _⟩ => ⟨S512x30, .f32⟩
  | .hbm, ⟨62, _⟩ => ⟨S_, .f32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512, .f32⟩
  | .hbm, ⟨68, _⟩ => ⟨S_, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S512x30x1, .f32⟩
  | .hbm, ⟨73, _⟩ => ⟨S512x1x30, .f32⟩
  | .hbm, ⟨74, _⟩ => ⟨S512x30x30, .f32⟩
  | .hbm, ⟨75, _⟩ => ⟨S512x30x30, .f32⟩
  | .hbm, ⟨76, _⟩ => ⟨S512x30x30, .f32⟩
  | .hbm, ⟨77, _⟩ => ⟨S_, .f32⟩
  | .hbm, ⟨78, _⟩ => ⟨S30x30, .f32⟩
  | .hbm, ⟨79, _⟩ => ⟨S30x30, .i32⟩
  | .hbm, ⟨80, _⟩ => ⟨S_, .i32⟩
  | .hbm, ⟨81, _⟩ => ⟨S30x30, .i32⟩
  | .hbm, ⟨82, _⟩ => ⟨S30x30, .i32⟩
  | .hbm, ⟨83, _⟩ => ⟨S30x30, .i32⟩
  | .hbm, ⟨84, _⟩ => ⟨S30x30, .i1⟩
  | .hbm, ⟨85, _⟩ => ⟨S_, .f32⟩
  | .hbm, ⟨86, _⟩ => ⟨S30x30, .f32⟩
  | .hbm, ⟨87, _⟩ => ⟨S30x30, .f32⟩
  | .hbm, ⟨88, _⟩ => ⟨S512x30x1, .f32⟩
  | .hbm, ⟨89, _⟩ => ⟨S512x1x30, .f32⟩
  | .hbm, ⟨90, _⟩ => ⟨S512x30x30, .f32⟩
  | .hbm, ⟨91, _⟩ => ⟨S512x30x30, .f32⟩
  | .hbm, ⟨92, _⟩ => ⟨S512x30x30, .f32⟩
  | .hbm, ⟨93, _⟩ => ⟨S1x30x30, .f32⟩
  | .hbm, ⟨94, _⟩ => ⟨S512x30x30, .f32⟩
  | .hbm, ⟨95, _⟩ => ⟨S512x30x30, .f32⟩
  | .hbm, ⟨96, _⟩ => ⟨S512x30x30, .f32⟩
  | .hbm, ⟨97, _⟩ => ⟨S512x30x30, .f32⟩
  | .hbm, ⟨98, _⟩ => ⟨S512x30x30, .f32⟩
  | .hbm, ⟨99, _⟩ => ⟨S512x30x30, .f32⟩
  | .hbm, ⟨100, _⟩ => ⟨S_, .f32⟩
  | .hbm, ⟨101, _⟩ => ⟨S512, .f32⟩
  | .hbm, ⟨102, _⟩ => ⟨S_, .f32⟩
  | .hbm, ⟨103, _⟩ => ⟨S512, .f32⟩
  | .hbm, ⟨104, _⟩ => ⟨S512, .f32⟩
  | .hbm, ⟨105, _⟩ => ⟨S512, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .i1⟩
  | .hbm, ⟨112, _⟩ => ⟨S_, .f32⟩
  | .hbm, ⟨113, _⟩ => ⟨S512, .f32⟩
  | .hbm, ⟨114, _⟩ => ⟨S512, .f32⟩
  | .hbm, ⟨115, _⟩ => ⟨S512, .f32⟩
  | .hbm, ⟨116, _⟩ => ⟨S512, .f32⟩
  | .hbm, ⟨117, _⟩ => ⟨S_, .f32⟩
  | .hbm, ⟨118, _⟩ => ⟨S512, .f32⟩
  | .hbm, ⟨119, _⟩ => ⟨S512, .f32⟩
  | .hbm, ⟨120, _⟩ => ⟨S512x1, .f32⟩
  | .hbm, ⟨121, _⟩ => ⟨S512x1, .f32⟩
  | .hbm, ⟨122, _⟩ => ⟨S512x2, .f32⟩
  | _, _ => ⟨S512x65536x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_6 : Ref sig .tc := ⟨.hbm, 62, rfl⟩
abbrev main_v31 : Ref sig .tc := ⟨.hbm, 63, rfl⟩
abbrev main_cst_7 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_cst : Ref sig .tc := ⟨.hbm, 85, rfl⟩
abbrev main_call2_v5 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_10 : Ref sig .tc := ⟨.hbm, 100, rfl⟩
abbrev main_v55 : Ref sig .tc := ⟨.hbm, 101, rfl⟩
abbrev main_cst_11 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_12 : Ref sig .tc := ⟨.hbm, 106, rfl⟩
abbrev main_v59 : Ref sig .tc := ⟨.hbm, 107, rfl⟩
abbrev main_v60 : Ref sig .tc := ⟨.hbm, 108, rfl⟩
abbrev main_cst_13 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_15 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩

abbrev nD : Nat := 1
abbrev τ : Topo := Topo.v7x

variable {F : FTy → Type} [FloatOps F]

class Facts₀ : Prop where
  slices_S512x30x17x2_S512x30x17x1_0_0_0_0 : S512x30x17x2.Slices ![0, 0, 0, 0] S512x30x17x1
  shapeCasts_S512x30x17x1_S512x30x17 : S512x30x17x1.ShapeCasts S512x30x17
  slices_S512x30x17x2_S512x30x17x1_0_0_0_1 : S512x30x17x2.Slices ![0, 0, 0, 1] S512x30x17x1
  bcast_S_S512x30x17 : S_.BroadcastsInDim S512x30x17 (![] : Fin 0 → Fin S512x30x17.rank)
  shapeCasts_S512x65536x1_S512x65536 : S512x65536x1.ShapeCasts S512x65536
  shapeCasts_S512x30x17_S512x510 : S512x30x17.ShapeCasts S512x510
  bcast_S_S512x510 : S_.BroadcastsInDim S512x510 (![] : Fin 0 → Fin S512x510.rank)
  shapeCasts_S512x510_S512x510x1 : S512x510.ShapeCasts S512x510x1
  bcast_S_S512x510x1 : S_.BroadcastsInDim S512x510x1 (![] : Fin 0 → Fin S512x510x1.rank)
  bcast_S1_S1x1x1_2 : S1.BroadcastsInDim S1x1x1 (![2] : Fin 1 → Fin S1x1x1.rank)
  bcast_S1x1x1_S512x510x1_0_1_2 : S1x1x1.BroadcastsInDim S512x510x1 (![0, 1, 2] : Fin 3 → Fin S512x510x1.rank)
  reducesTo_S512x510x1_S512x510_d2 : S512x510x1.ReducesTo [2] S512x510
  h_S_ : 0 < S_.numel
  shapeCasts_S512x510_S512x30x17 : S512x510.ShapeCasts S512x30x17
  reducesTo_S512x30x17_S512x30_d2 : S512x30x17.ReducesTo [2] S512x30
  bcast_S_S512x30 : S_.BroadcastsInDim S512x30 (![] : Fin 0 → Fin S512x30.rank)
  bcast_S512x30_S512x30x1_0_1 : S512x30.BroadcastsInDim S512x30x1 (![0, 1] : Fin 2 → Fin S512x30x1.rank)
  bcast_S512x30x1_S512x30x17_0_1_2 : S512x30x1.BroadcastsInDim S512x30x17 (![0, 1, 2] : Fin 3 → Fin S512x30x17.rank)
  reducesTo_S512x30_S512_d1 : S512x30.ReducesTo [1] S512
  bcast_S_S512 : S_.BroadcastsInDim S512 (![] : Fin 0 → Fin S512.rank)
  bcast_S512x30_S512x1x30_0_2 : S512x30.BroadcastsInDim S512x1x30 (![0, 2] : Fin 2 → Fin S512x1x30.rank)
  bcast_S512x30x1_S512x30x30_0_1_2 : S512x30x1.BroadcastsInDim S512x30x30 (![0, 1, 2] : Fin 3 → Fin S512x30x30.rank)
  bcast_S512x1x30_S512x30x30_0_1_2 : S512x1x30.BroadcastsInDim S512x30x30 (![0, 1, 2] : Fin 3 → Fin S512x30x30.rank)
  bcast_S_S30x30 : S_.BroadcastsInDim S30x30 (![] : Fin 0 → Fin S30x30.rank)
  bcast_S30x30_S1x30x30_1_2 : S30x30.BroadcastsInDim S1x30x30 (![1, 2] : Fin 2 → Fin S1x30x30.rank)
  bcast_S1x30x30_S512x30x30_0_1_2 : S1x30x30.BroadcastsInDim S512x30x30 (![0, 1, 2] : Fin 3 → Fin S512x30x30.rank)
  reducesTo_S512x30x30_S512_d1_2 : S512x30x30.ReducesTo [1, 2] S512
  bcast_S512_S512x1_0 : S512.BroadcastsInDim S512x1 (![0] : Fin 1 → Fin S512x1.rank)
  concatenates_S512x1_S512x1_S512x2_d1 : Shape.Concatenates [S512x1, S512x1] S512x2 1
  gather_S512x65536_S512x510x1_S512x510_n_1_0_0_1_2_11_wf : GatherDims.WF S512x65536 S512x510x1 S512x510 [] [1] [0] [1] [0] 2 ![1, 1]

variable [Facts₀]

def gather_S512x65536_S512x510x1_S512x510_n_1_0_0_1_2_11 : GatherDims S512x65536 S512x510x1 S512x510 where
  offsetDims := []
  collapsedSliceDims := [1]
  operandBatchingDims := [0]
  startIndicesBatchingDims := [0]
  startIndexMap := [1]
  indexVectorDim := 2
  sliceSizes := ![1, 1]
  wf := gather_S512x65536_S512x510x1_S512x510_n_1_0_0_1_2_11_wf

class Facts : Prop extends Facts₀ where

variable [Facts]
-- ==== Proof.Spec.lean ====
/-
  The associative-embedding loss of one batch row, as a function on the extended reals.

  A row has 30 persons with 17 joints each. `g p k` is the tag gathered for joint `k` of person `p`, `w p k` the
  joint's weight (1 when the joint is flagged valid, else 0). A person's count is the sum of its weights; its mean
  tag is the weighted sum of its tags over the count raised to at least one; its spread is the weighted sum of the
  squared deviations from that mean over the same divisor. A person is present when its count is positive. The pull
  term averages the spreads of the present persons; the push term sums `exp (-(mean p - mean q)^2)` over the pairs
  `p < q` of present persons, divides by the number of such pairs when more than one person is present, and halves.
  The row's result is the pair (push, pull).
-/
import Idealize.ShloMosaic.PureOps.Ideal
import Idealize.ShloMosaic.Lib.ValueIdx

noncomputable section

namespace Cert.AssocEmbed

open Idealize.ShloMosaic

/-- Joint `k` of person `p` in the flat order of a row's 510 joints. -/
def joint (p : Fin 30) (k : Fin 17) : Fin 510 := ⟨p.val * 17 + k.val, by have := p.isLt; have := k.isLt; omega⟩

/-- Position `(h, l)` of a 256 × 256 heat map in the flat order of its 65536 locations. -/
def cell (h l : Fin 256) : Fin 65536 := ⟨h.val * 256 + l.val, by have := h.isLt; have := l.isLt; omega⟩

/-- A one-bit word read as the number 0 or 1. -/
def ind (b : BitVec 1) : EReal := ((b.toNat : ℝ) : EReal)

/-- A joint's weight from its flag word: 1 when the flag is the word 1, else 0. -/
def flagWeight (f : BitVec 32) : EReal := ind (IntOp.cmpi .eq f 1#32)

/-- The constants 1, 2 and 1/2 as the float words both programs carry. -/
def one : EReal := Ideal.ofBits .f32 0x3F800000#32
def two : EReal := Ideal.ofBits .f32 0x40000000#32
def half : EReal := Ideal.ofBits .f32 0x3F000000#32

/-! ## Per person, from the row's tags and weights -/

section Person
variable (g w : Fin 30 → Fin 17 → EReal)

/-- The number of valid joints of person `p`. -/
def count (p : Fin 30) : EReal := ∑ k : Fin 17, w p k

/-- The divisor of person `p`'s averages: its count, or one when that is smaller. -/
def divisor (p : Fin 30) : EReal := max (count w p) one

/-- Person `p`'s mean tag over its valid joints. -/
def mean (p : Fin 30) : EReal := Ideal.div (∑ k : Fin 17, g p k * w p k) (divisor w p)

/-- Person `p`'s mean squared deviation from its mean tag, over its valid joints. -/
def spread (p : Fin 30) : EReal :=
  Ideal.div (∑ k : Fin 17, (g p k - mean g w p) * (g p k - mean g w p) * w p k) (divisor w p)

/-- 1 when person `p` has a valid joint, else 0. -/
def present (p : Fin 30) : EReal := ind (Ideal.cmp .ogt (count w p) 0)

end Person

/-! ## Per row, from the persons' means, spreads and presence -/

section Row
variable (μ s v : Fin 30 → EReal)

/-- The number of present persons. -/
def headcount : EReal := ∑ p : Fin 30, v p

/-- The pull term: the present persons' average spread, 0 when nobody is present. -/
def pull : EReal :=
  Scalar.select (Ideal.cmp .ogt (headcount v) 0)
    (Ideal.div (∑ p : Fin 30, s p * v p) (max (headcount v) one)) 0

/-- The pair `(p, q)`'s contribution to the push term: nonzero only for `p < q` both present. -/
def pairTerm (p q : Fin 30) : EReal :=
  Ideal.exp (-((μ p - μ q) * (μ p - μ q))) * (v p * v q * (if p.val < q.val then 1 else 0))

/-- The sum of all pairs' contributions. -/
def pairSum : EReal := ∑ p : Fin 30, ∑ q : Fin 30, pairTerm μ v p q

/-- The number of unordered pairs of present persons, `n (n - 1) / 2`. -/
def pairCount : EReal := Ideal.div (headcount v * (headcount v - one)) two

/-- The push term before halving: the pairs' sum over their number when more than one person is present. -/
def pushRaw : EReal :=
  Scalar.select (Ideal.cmp .ogt (headcount v) one) (Ideal.div (pairSum μ v) (max (pairCount v) one)) (pairSum μ v)

end Row

/-- The row's result from its tags and weights: push at position 0, pull at position 1. -/
def loss (g w : Fin 30 → Fin 17 → EReal) (j : Fin 2) : EReal :=
  if j.val = 0 then pushRaw (mean g w) (present w) * half else pull (spread g w) (present w)

end Cert.AssocEmbed

end
-- ==== Proof.Pre.lean ====
/-
  The precondition read back: when the printed predicate holds of the inputs, every joint's location index is a word
  below 65536. The predicate's integer half is the and-reduction, over all joints, of `0 ≤ index` and `index < 65536`
  as signed comparisons; a word that passes both is the word of a natural number below 65536.
-/
import proofs.«405738_j66889820668447_3_alg».proof.Proof.Gen.Pre_finite_inputs
import proofs.«405738_j66889820668447_3_alg».proof.Proof.Spec
import Idealize.ShloMosaic.Lib.ValueIdx
import Idealize.ShloMosaic.Lib.Pipeline.Value
import Idealize.ShloMosaic.Lib.ReduceAll
import Idealize.ShloMosaic.Lib.StableHlo.Predicate

noncomputable section

namespace Cert.Pre_finite_inputs.Decode

open Cert.Pre_finite_inputs Cert.AssocEmbed Idealize.ShloMosaic Idealize.ShloMosaic.ValueIdx

variable {F : FTy → Type} [FloatOps F]

/-- A word that is non-negative and below 65536 as a signed number has a value below 65536. -/
private theorem toNat_lt_of_signed_range (w : BitVec 32) (hlo : IntOp.cmpi .sge w 0#32 = 1#1)
    (hhi : IntOp.cmpi .slt w 65536#32 = 1#1) : w.toNat < 65536 := by
  have hnn : (0 : Int) ≤ w.toInt := by
    unfold IntOp.cmpi at hlo
    have := (StableHlo.Predicate.ofBool_eq_one_iff _).1 hlo
    simpa [BitVec.sle] using this
  have hsmall : w.toNat < 2 ^ 31 := by
    have hw := w.isLt
    rw [BitVec.toInt_eq_toNat_cond] at hnn
    split at hnn <;> omega
  have hc : (65536#32 : BitVec 32).toNat < 2 ^ 31 := by decide
  exact (StableHlo.Predicate.slt_iff_toNat hsmall hc).1 hhi

/-- The first word of joint (B, p, k) is the sliced array's entry at (B, p, k, 0). -/
private theorem slice_first [Cert.Pre_finite_inputs.Facts] (x1 : IVec S512x30x17x2 32) (B : Fin 512) (p : Fin 30) (k : Fin 17) :
    extractStridedSlice S512x30x17x1 ![0, 0, 0, 0] x1 Facts.slices_S512x30x17x2_S512x30x17x1_0_0_0_0 (ix4 B p k (0 : Fin 1))
      = x1 (ix4 B p k (0 : Fin 2)) :=
  extractStridedSlice_apply ![0, 0, 0, 0] x1 _ (ix4 B p k (0 : Fin 1)) (ix4 B p k (0 : Fin 2)) (fun a => match a with
    | ⟨0, _⟩ => (Nat.zero_add _).symm
    | ⟨1, _⟩ => (Nat.zero_add _).symm
    | ⟨2, _⟩ => (Nat.zero_add _).symm
    | ⟨3, _⟩ => rfl)

/-- Under the precondition every location index is the word of a natural number below 65536. -/
theorem index_range [Cert.Pre_finite_inputs.Facts] (x0 : FVec F S512x65536x1 .f32) (x1 : IVec S512x30x17x2 32)
    (h : Cert.Pre_finite_inputs.fn (F := F) x0 x1 = fun _ => 1#1) (B : Fin 512) (p : Fin 30) (k : Fin 17) :
    ∃ n : Fin 65536, x1 (ix4 B p k (0 : Fin 2)) = BitVec.ofNat 32 n.val := by
  -- the predicate at its one index: the "and" of the float half and the integer half
  have h1 := congrFun h ix0
  unfold fn at h1
  dsimp only at h1
  obtain ⟨-, hint⟩ := IntOp.andi_eq_one.1 h1
  -- the integer half is an and-reduction over all joints, so it holds at joint (B, p, k)
  haveI : Subsingleton S_.Idx := ⟨fun a b => funext fun d => d.elim0⟩
  have hj := Host.reduce_andi_all _ _ _ _ ix0 hint (ix4 B p k (0 : Fin 1))
  obtain ⟨hlo, hhi⟩ := IntOp.andi_eq_one.1 hj
  -- at that joint both comparisons read the first word, against the constants 0 and 65536
  have hw := slice_first x1 B p k
  have hlo' : IntOp.cmpi .sge (x1 (ix4 B p k (0 : Fin 2))) 0#32 = 1#1 := by rw [← hw]; exact hlo
  have hhi' : IntOp.cmpi .slt (x1 (ix4 B p k (0 : Fin 2))) 65536#32 = 1#1 := by rw [← hw]; exact hhi
  -- so the word is the word of its own value, a natural number below 65536
  refine ⟨⟨(x1 (ix4 B p k (0 : Fin 2))).toNat, toNat_lt_of_signed_range _ hlo' hhi'⟩, BitVec.eq_of_toNat_eq ?_⟩
  rw [BitVec.toNat_ofNat]
  exact (Nat.mod_eq_of_lt (x1 (ix4 B p k (0 : Fin 2))).isLt).symm

end Cert.Pre_finite_inputs.Decode

end
-- ==== Proof.KStages.lean ====
/-
  The kernel body's per-person stages read at an index: the weights regrouped by person, each person's mean tag, its
  spread and its presence, as the row functions of the specification applied to the row's gathered tags and weights.
-/
import proofs.«405738_j66889820668447_3_alg».proof.Proof.Gen.KernelIdeal.Skeleton
import proofs.«405738_j66889820668447_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Stages

open Cert.KernelIdeal Cert.KernelIdeal.Gen Cert.AssocEmbed Idealize.ShloMosaic Idealize.ShloMosaic.ValueIdx

/-- Row `b`'s gathered tags, by person and joint. -/
abbrev rowTags (P0 : Vec Ideal S8x256x256 .f32) (P1 P2 : Vec Ideal S8x510 .i32) (b : Fin 8) : Fin 30 → Fin 17 → EReal :=
  fun p k => k0_pay2 (F := Ideal) P0 P1 P2 (ix3 b p k)

/-- Row `b`'s weights, by person and joint. -/
abbrev rowWeights (P3 : Vec Ideal S8x510 .f32) (b : Fin 8) : Fin 30 → Fin 17 → EReal :=
  fun p k => P3 (ix2 b (joint p k))

/-- The weights regrouped by person: entry `(b, p, k)` is the flat row's entry at joint `17 p + k`. -/
theorem weight_eq (P3 : Vec Ideal S8x510 .f32) (b : Fin 8) (p : Fin 30) (k : Fin 17) :
    k0_pay3 (F := Ideal) P3 (ix3 b p k) = P3 (ix2 b (joint p k)) := by
  unfold k0_pay3
  -- the regrouping keeps the row-major position: 510 b + (17 p + k) = 17 (30 b + p) + k
  refine (shapeCast_apply _ shapeCasts_S8x510_S8x30x17 (ix3 b p k) (ix2 b (joint p k)) ?_).trans ?_
  · rw [Shape.rowMajor_val_two, Shape.rowMajor_val_three]
    show b.val * 510 + (p.val * 17 + k.val) = (b.val * 30 + p.val) * 17 + k.val
    omega
  · exact shapeCast_apply _ shapeCasts_S8x510_S8x510 (ix2 b (joint p k)) (ix2 b (joint p k)) rfl

/-- The source index of a sum over the last axis of an 8 × 30 × 17 array, at result position `(b, p)` with summed
    coordinate `k`, is `(b, p, k)`. -/
private theorem lift_last (b : Fin 8) (p : Fin 30) (k : Fin 17) :
    reduces_S8x30x17_S8x30.lift (ix2 b p) k = ix3 b p k := by
  funext c
  apply Fin.ext
  match c with
  | ⟨0, _⟩ => rfl
  | ⟨1, _⟩ => rfl
  | ⟨2, _⟩ => rfl

/-- A sum over the last axis of an 8 × 30 × 17 array, read at `(b, p)`: the sum of person `p`'s 17 entries. -/
private theorem sum_last (src : FVec Ideal S8x30x17 .f32) (b : Fin 8) (p : Fin 30) :
    multiReduction .add [2] S8x30 src 0x00000000#32 reduces_S8x30x17_S8x30 (.inl rfl) rfl (ix2 b p)
      = ∑ k : Fin 17, src (ix3 b p k) := by
  refine (Ideal.multiReduction_add_single src 0x00000000#32 reduces_S8x30x17_S8x30 (.inl rfl) rfl (ix2 b p)).trans ?_
  exact Finset.sum_congr rfl fun k _ => congrArg src (lift_last b p k)

/-- Person `p`'s count in row `b`: the sum of its weights. -/
private theorem count_eq (P3 : Vec Ideal S8x510 .f32) (b : Fin 8) (p : Fin 30) :
    k0_pay4 (F := Ideal) P3 (ix2 b p) = Cert.AssocEmbed.count (rowWeights P3 b) p := by
  unfold k0_pay4 Cert.AssocEmbed.count
  refine (sum_last _ b p).trans ?_
  exact Finset.sum_congr rfl fun k _ => weight_eq P3 b p k

/-- Person `p`'s divisor in row `b`: its count raised to at least one. -/
private theorem divisor_eq (P3 : Vec Ideal S8x510 .f32) (b : Fin 8) (p : Fin 30) :
    k0_pay5 (F := Ideal) P3 (ix2 b p) = divisor (rowWeights P3 b) p := by
  unfold k0_pay5 Cert.AssocEmbed.divisor Cert.AssocEmbed.one
  exact congrArg (fun c => max c (Ideal.ofBits .f32 0x3F800000#32)) (count_eq P3 b p)

/-- Person `p`'s mean tag in row `b`. -/
theorem mean_eq (P0 : Vec Ideal S8x256x256 .f32) (P1 P2 : Vec Ideal S8x510 .i32) (P3 : Vec Ideal S8x510 .f32) (b : Fin 8) (p : Fin 30) :
    k0_pay6 (F := Ideal) P0 P1 P2 P3 (ix2 b p) = mean (rowTags P0 P1 P2 b) (rowWeights P3 b) p := by
  unfold k0_pay6 Cert.AssocEmbed.mean
  refine congrArg₂ Ideal.div ?_ (divisor_eq P3 b p)
  refine (sum_last _ b p).trans ?_
  refine Finset.sum_congr rfl fun k _ => ?_
  exact congrArg (fun c => k0_pay2 (F := Ideal) P0 P1 P2 (ix3 b p k) * c) (weight_eq P3 b p k)

/-- The mean kept as a column and repeated along the joints reads, at `(b, p, k)`, person `p`'s mean. -/
private theorem mean_col_eq (P0 : Vec Ideal S8x256x256 .f32) (P1 P2 : Vec Ideal S8x510 .i32) (P3 : Vec Ideal S8x510 .f32) (b : Fin 8) (p : Fin 30) (k : Fin 17) :
    broadcastTo S8x30x17 (shapeCast S8x30x1 (k0_pay6 (F := Ideal) P0 P1 P2 P3) shapeCasts_S8x30_S8x30x1) broadcasts_S8x30x1_S8x30x17 (ix3 b p k)
      = mean (rowTags P0 P1 P2 b) (rowWeights P3 b) p := by
  refine (broadcastTo_apply _ broadcasts_S8x30x1_S8x30x17 (ix3 b p k) (ix3 b p (0 : Fin 1)) fun a => ?_).trans ?_
  · match a with
    | ⟨0, _⟩ => rfl
    | ⟨1, _⟩ => rfl
    | ⟨2, _⟩ => rfl
  · refine (shapeCast_apply _ shapeCasts_S8x30_S8x30x1 (ix3 b p (0 : Fin 1)) (ix2 b p) ?_).trans (mean_eq P0 P1 P2 P3 b p)
    rw [Shape.rowMajor_val_two, Shape.rowMajor_val_three]
    show b.val * 30 + p.val = (b.val * 30 + p.val) * 1 + 0
    omega

/-- Person `p`'s spread in row `b`. -/
theorem spread_eq (P0 : Vec Ideal S8x256x256 .f32) (P1 P2 : Vec Ideal S8x510 .i32) (P3 : Vec Ideal S8x510 .f32) (b : Fin 8) (p : Fin 30) :
    k0_pay7 (F := Ideal) P0 P1 P2 P3 (ix2 b p) = spread (rowTags P0 P1 P2 b) (rowWeights P3 b) p := by
  unfold k0_pay7 Cert.AssocEmbed.spread
  refine congrArg₂ Ideal.div ?_ (divisor_eq P3 b p)
  refine (sum_last _ b p).trans ?_
  refine Finset.sum_congr rfl fun k _ => ?_
  have hm := mean_col_eq P0 P1 P2 P3 b p k
  have hw := weight_eq P3 b p k
  show (k0_pay2 (F := Ideal) P0 P1 P2 (ix3 b p k) - broadcastTo S8x30x17 (shapeCast S8x30x1 (k0_pay6 (F := Ideal) P0 P1 P2 P3) shapeCasts_S8x30_S8x30x1) broadcasts_S8x30x1_S8x30x17 (ix3 b p k))
      * (k0_pay2 (F := Ideal) P0 P1 P2 (ix3 b p k) - broadcastTo S8x30x17 (shapeCast S8x30x1 (k0_pay6 (F := Ideal) P0 P1 P2 P3) shapeCasts_S8x30_S8x30x1) broadcasts_S8x30x1_S8x30x17 (ix3 b p k))
      * k0_pay3 (F := Ideal) P3 (ix3 b p k) = _
  rw [hm, hw]

/-- A one-bit word widened to 32 bits and read signed is the number the bit reads as. -/
private theorem bit_toInt (c : BitVec 1) : (((c.setWidth 32).toInt : ℝ) : EReal) = ((c.toNat : ℝ) : EReal) := by
  rcases BitVec.eq_zero_or_eq_one c with h | h
  · rw [h]
    have e : ((0#1).setWidth 32).toInt = (((0#1).toNat : ℕ) : ℤ) := by decide
    rw [e, Int.cast_natCast]
  · rw [h]
    have e : ((1#1).setWidth 32).toInt = (((1#1).toNat : ℕ) : ℤ) := by decide
    rw [e, Int.cast_natCast]

/-- Person `p`'s presence in row `b`, as the float the body converts the comparison's bit to. -/
theorem present_eq (P3 : Vec Ideal S8x510 .f32) (b : Fin 8) (p : Fin 30) :
    k0_pay9 (F := Ideal) (k0_pay8 (F := Ideal) P3) (ix2 b p) = present (rowWeights P3 b) p := by
  unfold k0_pay9 k0_pay8 Cert.AssocEmbed.present Cert.AssocEmbed.ind
  show ((((Ideal.cmp .ogt (k0_pay4 (F := Ideal) P3 (ix2 b p)) (Ideal.ofBits .f32 0x00000000#32)).setWidth 32).toInt : ℝ) : EReal) = _
  rw [count_eq, Ideal.ofBits_zero_f32]
  exact bit_toInt _

end Cert.KernelIdeal.Stages

end
-- ==== Proof.LibColumn.lean ====
/-
  A column kept as a [a, 1] array: the three readings a row reduction with `keepdims` needs.
  A vector of `a` entries cast to [a, 1] reads at (r, 0) its entry r; a [a, 1] column broadcast along a second axis of
  extent b reads at (r, k) the column's entry (r, 0); and the source index of a reduction of a [a, b] array over its
  second axis, at result position r with reduced coordinate k, is (r, k).
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column broadcast to `[a, b]` reads, at `(r, k)`, the column at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Reducing an `[a, b]` array over its second axis: the source index over result position `r` with reduced
    coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Cert.LibColumn
-- ==== Proof.KRow.lean ====
/-
  The kernel body's per-row stages read at an index, for arbitrary vectors of per-person means, spreads and presence
  words: the pull term, the push term before halving, and the constant one half.
-/
import proofs.«405738_j66889820668447_3_alg».proof.Proof.Gen.KernelIdeal.Skeleton
import proofs.«405738_j66889820668447_3_alg».proof.Proof.Spec
import proofs.«405738_j66889820668447_3_alg».proof.Proof.LibColumn
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Row

open Cert.KernelIdeal Cert.KernelIdeal.Gen Cert.AssocEmbed Idealize.ShloMosaic Idealize.ShloMosaic.ValueIdx

/-- Row `b`'s presence floats, from the per-person words. -/
abbrev rowPresent (v41 : IVec S8x30 32) (b : Fin 8) : Fin 30 → EReal := fun p => k0_pay9 (F := Ideal) v41 (ix2 b p)

/-- The sum of row `b`'s presence floats over the person axis is the row's headcount. -/
private theorem headcount_eq (v41 : IVec S8x30 32) (b : Fin 8) :
    k0_pay10 (F := Ideal) v41 (ix1 b) = headcount (rowPresent v41 b) := by
  unfold k0_pay10 headcount
  refine (Ideal.multiReduction_add_single (k0_pay9 (F := Ideal) v41) 0x00000000#32 reduces_S8x30_S8 (.inl rfl) rfl (ix1 b)).trans ?_
  refine Finset.sum_congr rfl fun k _ => ?_
  exact congrArg _ (Cert.LibColumn.lift_axis1 reduces_S8x30_S8 b k)

/-- The pull term of row `b` over the spreads `v38` and the presence words `v41`. -/
theorem pull_eq (v38 : FVec Ideal S8x30 .f32) (v41 : IVec S8x30 32) (b : Fin 8) :
    k0_pay11 (F := Ideal) v38 v41 (ix1 b) = pull (fun p => v38 (ix2 b p)) (rowPresent v41 b) := by
  have hc := headcount_eq v41 b
  have hs : multiReduction .add [1] S8 (mulf v38 (k0_pay9 (F := Ideal) v41)) 0x00000000#32 reduces_S8x30_S8 (.inl rfl) rfl (ix1 b)
      = ∑ p : Fin 30, v38 (ix2 b p) * rowPresent v41 b p := by
    refine (Ideal.multiReduction_add_single _ 0x00000000#32 reduces_S8x30_S8 (.inl rfl) rfl (ix1 b)).trans ?_
    refine Finset.sum_congr rfl fun k _ => ?_
    rw [Cert.LibColumn.lift_axis1 reduces_S8x30_S8 b k]; rfl
  show Scalar.select (Ideal.cmp .ogt (k0_pay10 (F := Ideal) v41 (ix1 b)) (Ideal.ofBits .f32 0x00000000#32))
      (Ideal.div (multiReduction .add [1] S8 (mulf v38 (k0_pay9 (F := Ideal) v41)) 0x00000000#32 reduces_S8x30_S8 (.inl rfl) rfl (ix1 b))
        (max (k0_pay10 (F := Ideal) v41 (ix1 b)) (Ideal.ofBits .f32 0x3F800000#32)))
      (Ideal.ofBits .f32 0x00000000#32) = _
  rw [hs, hc, Ideal.ofBits_zero_f32]
  rfl

section Layout
variable {α : Type}

/-- An 8 × 30 array cast to 8 × 30 × 1 reads, at `(b, p, u)`, the operand at `(b, p)`. -/
private theorem cast_col (x : S8x30.Idx → α) (h : S8x30.ShapeCasts S8x30x1) (b : Fin 8) (p : Fin 30) (u : Fin 1) :
    shapeCast S8x30x1 x h (ix3 b p u) = x (ix2 b p) :=
  shapeCast_apply x h _ _ (by
    have hu : u.val = 0 := by omega
    rw [Shape.rowMajor_val_two, Shape.rowMajor_val_three]
    show b.val * 30 + p.val = (b.val * 30 + p.val) * 1 + u.val
    omega)

/-- An 8 × 30 array cast to 8 × 1 × 30 reads, at `(b, u, q)`, the operand at `(b, q)`. -/
private theorem cast_row (x : S8x30.Idx → α) (h : S8x30.ShapeCasts S8x1x30) (b : Fin 8) (u : Fin 1) (q : Fin 30) :
    shapeCast S8x1x30 x h (ix3 b u q) = x (ix2 b q) :=
  shapeCast_apply x h _ _ (by
    have hu : u.val = 0 := by omega
    rw [Shape.rowMajor_val_two, Shape.rowMajor_val_three]
    show b.val * 30 + q.val = (b.val * 1 + u.val) * 30 + q.val
    omega)

/-- An 8 × 30 × 1 array broadcast to 8 × 30 × 30 reads, at `(b, p, q)`, the operand at `(b, p, 0)`. -/
private theorem bcast_col (y : S8x30x1.Idx → α) (h : S8x30x1.Broadcasts S8x30x30) (b : Fin 8) (p q : Fin 30) :
    broadcastTo S8x30x30 y h (ix3 b p q) = y (ix3 b p (0 : Fin 1)) :=
  broadcastTo_apply y h (ix3 b p q) (ix3 b p (0 : Fin 1)) fun ax => by
    match ax with
    | ⟨0, _⟩ => rfl
    | ⟨1, _⟩ => rfl
    | ⟨2, _⟩ => rfl

/-- An 8 × 1 × 30 array broadcast to 8 × 30 × 30 reads, at `(b, p, q)`, the operand at `(b, 0, q)`. -/
private theorem bcast_row (y : S8x1x30.Idx → α) (h : S8x1x30.Broadcasts S8x30x30) (b : Fin 8) (p q : Fin 30) :
    broadcastTo S8x30x30 y h (ix3 b p q) = y (ix3 b (0 : Fin 1) q) :=
  broadcastTo_apply y h (ix3 b p q) (ix3 b (0 : Fin 1) q) fun ax => by
    match ax with
    | ⟨0, _⟩ => rfl
    | ⟨1, _⟩ => rfl
    | ⟨2, _⟩ => rfl

/-- A 1 × 30 × 30 array broadcast to 8 × 30 × 30 reads, at `(b, p, q)`, the operand at `(0, p, q)`. -/
private theorem bcast_tri (y : S1x30x30.Idx → α) (h : S1x30x30.Broadcasts S8x30x30) (b : Fin 8) (p q : Fin 30) :
    broadcastTo S8x30x30 y h (ix3 b p q) = y (ix3 (0 : Fin 1) p q) :=
  broadcastTo_apply y h (ix3 b p q) (ix3 (0 : Fin 1) p q) fun ax => by
    match ax with
    | ⟨0, _⟩ => rfl
    | ⟨1, _⟩ => rfl
    | ⟨2, _⟩ => rfl

end Layout

/-- The index a sum over the last axis of an 8 × 30 × 30 array reads at `(b, p)` with summed coordinate `q`. -/
private theorem lift_last (h : S8x30x30.Reduces [2] S8x30) (b : Fin 8) (p q : Fin 30) :
    h.lift (ix2 b p) q = ix3 b p q := by
  funext c
  apply Fin.ext
  match c with
  | ⟨0, _⟩ => rfl
  | ⟨1, _⟩ => rfl
  | ⟨2, _⟩ => rfl

/-- The row iota of the 1 × 30 × 30 triangle reads its middle coordinate. -/
private theorem iota_mid (h : S1x30x30.Iotas .tc 32 [1]) (u : Fin 1) (p q : Fin 30) :
    iota .tc S1x30x30 32 [1] h (ix3 u p q) = BitVec.ofNat 32 p.val :=
  iota_single_apply .tc S1x30x30 32 1 h (ix3 u p q)

/-- The column iota of the 1 × 30 × 30 triangle reads its last coordinate. -/
private theorem iota_last (h : S1x30x30.Iotas .tc 32 [2]) (u : Fin 1) (p q : Fin 30) :
    iota .tc S1x30x30 32 [2] h (ix3 u p q) = BitVec.ofNat 32 q.val :=
  iota_single_apply .tc S1x30x30 32 2 h (ix3 u p q)

/-- The triangle factor: for persons `p`, `q` below 30 the signed comparison "column word above row word", widened and
    read as a float, is 1 when `p < q` and 0 otherwise. -/
private theorem tri_eq (p q : Fin 30) :
    (((((IntOp.cmpi .sgt (BitVec.ofNat 32 q.val) (BitVec.ofNat 32 p.val)).setWidth 32).toInt : ℝ) : EReal))
      = if p.val < q.val then 1 else 0 := by
  have hp30 : p.val < 30 := p.isLt
  have hq30 : q.val < 30 := q.isLt
  have hp : (BitVec.ofNat 32 p.val).toNat = p.val := by
    rw [BitVec.toNat_ofNat]; exact Nat.mod_eq_of_lt (by omega)
  have hq : (BitVec.ofNat 32 q.val).toNat = q.val := by
    rw [BitVec.toNat_ofNat]; exact Nat.mod_eq_of_lt (by omega)
  have hiff := StableHlo.Predicate.sgt_iff_toNat (a := BitVec.ofNat 32 q.val) (b := BitVec.ofNat 32 p.val)
    (by rw [hq]; omega) (by rw [hp]; omega)
  rw [hp, hq] at hiff
  by_cases h : p.val < q.val
  · rw [hiff.mpr h, if_pos h]
    norm_num
  · rw [eq_zero_of_ne_one (fun h1 => h (hiff.mp h1)), if_neg h]
    norm_num

/-- The 8 × 30 × 30 array of pair contributions the push term sums: at `(b, p, q)`,
    `exp (0 - (μ p - μ q)²)` times the two presence floats times the triangle factor. -/
private def pairVec (v31 : FVec Ideal S8x30 .f32) (v41 : IVec S8x30 32) : FVec Ideal S8x30x30 .f32 :=
  mulf
    (exp (subf (broadcast S8x30x30 (Scalar.ofBits .f32 0x00000000#32))
      (mulf
        (subf (broadcastTo S8x30x30 (shapeCast S8x30x1 v31 shapeCasts_S8x30_S8x30x1) broadcasts_S8x30x1_S8x30x30)
          (broadcastTo S8x30x30 (shapeCast S8x1x30 v31 shapeCasts_S8x30_S8x1x30) broadcasts_S8x1x30_S8x30x30))
        (subf (broadcastTo S8x30x30 (shapeCast S8x30x1 v31 shapeCasts_S8x30_S8x30x1) broadcasts_S8x30x1_S8x30x30)
          (broadcastTo S8x30x30 (shapeCast S8x1x30 v31 shapeCasts_S8x30_S8x1x30) broadcasts_S8x1x30_S8x30x30)))))
    (mulf
      (mulf
        (broadcastTo S8x30x30 (shapeCast S8x30x1 (k0_pay9 (F := Ideal) v41) shapeCasts_S8x30_S8x30x1) broadcasts_S8x30x1_S8x30x30)
        (broadcastTo S8x30x30 (shapeCast S8x1x30 (k0_pay9 (F := Ideal) v41) shapeCasts_S8x30_S8x1x30) broadcasts_S8x1x30_S8x30x30))
      (broadcastTo S8x30x30
        (sitofp .f32 (extui 32
          (cmpi .sgt (iota .tc S1x30x30 32 [2] iota_S1x30x30_d2_w32) (iota .tc S1x30x30 32 [1] iota_S1x30x30_d1_w32))
          natLt_1_32))
        broadcasts_S1x30x30_S8x30x30))

/-- The array of pair contributions at `(b, p, q)` is the pair `(p, q)`'s term of row `b`. -/
private theorem pairVec_apply (v31 : FVec Ideal S8x30 .f32) (v41 : IVec S8x30 32) (b : Fin 8) (p q : Fin 30) :
    pairVec v31 v41 (ix3 b p q) = pairTerm (fun p => v31 (ix2 b p)) (rowPresent v41 b) p q := by
  have hμp : broadcastTo S8x30x30 (shapeCast S8x30x1 v31 shapeCasts_S8x30_S8x30x1) broadcasts_S8x30x1_S8x30x30 (ix3 b p q)
      = v31 (ix2 b p) := (bcast_col _ _ b p q).trans (cast_col _ _ b p 0)
  have hμq : broadcastTo S8x30x30 (shapeCast S8x1x30 v31 shapeCasts_S8x30_S8x1x30) broadcasts_S8x1x30_S8x30x30 (ix3 b p q)
      = v31 (ix2 b q) := (bcast_row _ _ b p q).trans (cast_row _ _ b 0 q)
  have hvp : broadcastTo S8x30x30 (shapeCast S8x30x1 (k0_pay9 (F := Ideal) v41) shapeCasts_S8x30_S8x30x1)
      broadcasts_S8x30x1_S8x30x30 (ix3 b p q) = rowPresent v41 b p := (bcast_col _ _ b p q).trans (cast_col _ _ b p 0)
  have hvq : broadcastTo S8x30x30 (shapeCast S8x1x30 (k0_pay9 (F := Ideal) v41) shapeCasts_S8x30_S8x1x30)
      broadcasts_S8x1x30_S8x30x30 (ix3 b p q) = rowPresent v41 b q := (bcast_row _ _ b p q).trans (cast_row _ _ b 0 q)
  have ht : broadcastTo S8x30x30
        (sitofp (F := Ideal) .f32 (extui 32
          (cmpi .sgt (iota .tc S1x30x30 32 [2] iota_S1x30x30_d2_w32) (iota .tc S1x30x30 32 [1] iota_S1x30x30_d1_w32))
          natLt_1_32))
        broadcasts_S1x30x30_S8x30x30 (ix3 b p q) = if p.val < q.val then 1 else 0 := by
    refine (bcast_tri _ _ b p q).trans ?_
    show (((((IntOp.cmpi .sgt (iota .tc S1x30x30 32 [2] iota_S1x30x30_d2_w32 (ix3 (0 : Fin 1) p q))
      (iota .tc S1x30x30 32 [1] iota_S1x30x30_d1_w32 (ix3 (0 : Fin 1) p q))).setWidth 32).toInt : ℝ) : EReal)) = _
    rw [iota_last, iota_mid]
    exact tri_eq p q
  show Ideal.exp (Ideal.ofBits .f32 0x00000000#32
        - (broadcastTo S8x30x30 (shapeCast S8x30x1 v31 shapeCasts_S8x30_S8x30x1) broadcasts_S8x30x1_S8x30x30 (ix3 b p q)
            - broadcastTo S8x30x30 (shapeCast S8x1x30 v31 shapeCasts_S8x30_S8x1x30) broadcasts_S8x1x30_S8x30x30 (ix3 b p q))
          * (broadcastTo S8x30x30 (shapeCast S8x30x1 v31 shapeCasts_S8x30_S8x30x1) broadcasts_S8x30x1_S8x30x30 (ix3 b p q)
            - broadcastTo S8x30x30 (shapeCast S8x1x30 v31 shapeCasts_S8x30_S8x1x30) broadcasts_S8x1x30_S8x30x30 (ix3 b p q)))
      * (broadcastTo S8x30x30 (shapeCast S8x30x1 (k0_pay9 (F := Ideal) v41) shapeCasts_S8x30_S8x30x1)
            broadcasts_S8x30x1_S8x30x30 (ix3 b p q)
          * broadcastTo S8x30x30 (shapeCast S8x1x30 (k0_pay9 (F := Ideal) v41) shapeCasts_S8x30_S8x1x30)
            broadcasts_S8x1x30_S8x30x30 (ix3 b p q)
          * broadcastTo S8x30x30
            (sitofp (F := Ideal) .f32 (extui 32
              (cmpi .sgt (iota .tc S1x30x30 32 [2] iota_S1x30x30_d2_w32) (iota .tc S1x30x30 32 [1] iota_S1x30x30_d1_w32))
              natLt_1_32))
            broadcasts_S1x30x30_S8x30x30 (ix3 b p q)) = _
  rw [hμp, hμq, hvp, hvq, ht, Ideal.ofBits_zero_f32, zero_sub]
  rfl

/-- Summing the pair contributions over the last axis and then over the person axis gives row `b`'s pair sum. -/
private theorem pairSum_eq (v31 : FVec Ideal S8x30 .f32) (v41 : IVec S8x30 32) (b : Fin 8) :
    multiReduction .add [1] S8
        (multiReduction .add [2] S8x30 (pairVec v31 v41) 0x00000000#32 reduces_S8x30x30_S8x30 (.inl rfl) rfl)
        0x00000000#32 reduces_S8x30_S8 (.inl rfl) rfl (ix1 b)
      = pairSum (fun p => v31 (ix2 b p)) (rowPresent v41 b) := by
  refine (Ideal.multiReduction_add_single _ 0x00000000#32 reduces_S8x30_S8 (.inl rfl) rfl (ix1 b)).trans ?_
  unfold pairSum
  refine Finset.sum_congr rfl fun p _ => ?_
  rw [Cert.LibColumn.lift_axis1 reduces_S8x30_S8 b p]
  refine (Ideal.multiReduction_add_single (pairVec v31 v41) 0x00000000#32 reduces_S8x30x30_S8x30 (.inl rfl) rfl (ix2 b p)).trans ?_
  refine Finset.sum_congr rfl fun q _ => ?_
  rw [lift_last reduces_S8x30x30_S8x30 b p q]
  exact pairVec_apply v31 v41 b p q

/-- The push term of row `b` before halving, over the means `v31` and the presence words `v41`. -/
theorem pushRaw_eq (v31 : FVec Ideal S8x30 .f32) (v41 : IVec S8x30 32) (b : Fin 8) :
    k0_pay12 (F := Ideal) v31 v41 (ix1 b) = pushRaw (fun p => v31 (ix2 b p)) (rowPresent v41 b) := by
  have hc := headcount_eq v41 b
  have hs := pairSum_eq v31 v41 b
  show Scalar.select (Ideal.cmp .ogt (k0_pay10 (F := Ideal) v41 (ix1 b)) (Ideal.ofBits .f32 0x3F800000#32))
      (Ideal.div
        (multiReduction .add [1] S8
          (multiReduction .add [2] S8x30 (pairVec v31 v41) 0x00000000#32 reduces_S8x30x30_S8x30 (.inl rfl) rfl)
          0x00000000#32 reduces_S8x30_S8 (.inl rfl) rfl (ix1 b))
        (max (Ideal.div (k0_pay10 (F := Ideal) v41 (ix1 b) * (k0_pay10 (F := Ideal) v41 (ix1 b) - Ideal.ofBits .f32 0x3F800000#32))
            (Ideal.ofBits .f32 0x40000000#32))
          (Ideal.ofBits .f32 0x3F800000#32)))
      (multiReduction .add [1] S8
        (multiReduction .add [2] S8x30 (pairVec v31 v41) 0x00000000#32 reduces_S8x30x30_S8x30 (.inl rfl) rfl)
        0x00000000#32 reduces_S8x30_S8 (.inl rfl) rfl (ix1 b)) = _
  rw [hs, hc]
  rfl

/-- The constant the push term is multiplied by. -/
theorem half_eq (b : Fin 8) : k0_pay13 (F := Ideal) (ix1 b) = half := rfl

end Cert.KernelIdeal.Row

end
-- ==== Proof.LibPair.lean ====
/-
  Two columns side by side: the concatenation of two [n, 1] arrays along their second axis is the [n, 2] array whose
  entry (r, 0) is the first column's entry (r, 0) and whose entry (r, 1) is the second column's entry (r, 0).
-/
import Idealize.ShloMosaic.Lib.Pipeline.Value
import Idealize.ShloMosaic.Lib.ValueIdx

namespace Cert.LibPair

open Idealize.ShloMosaic Idealize.ShloMosaic.ValueIdx

variable {α : Type}

/-- Entry `(r, j)` of two `[n, 1]` columns joined along the second axis: the first column at `(r, 0)` when `j = 0`,
    the second column at `(r, 0)` when `j = 1`. -/
theorem concat_cols_apply {n : ℕ} (x₁ x₂ : (⟨2, ![n, 1]⟩ : Shape).Idx → α)
    (h : Shape.Concatenates [(⟨2, ![n, 1]⟩ : Shape), (⟨2, ![n, 1]⟩ : Shape)] (⟨2, ![n, 2]⟩ : Shape) (1 : Fin 2))
    (r : Fin n) (j : Fin 2) :
    concatenate (⟨2, ![n, 2]⟩ : Shape) (1 : Fin 2) [⟨(⟨2, ![n, 1]⟩ : Shape), x₁⟩, ⟨(⟨2, ![n, 1]⟩ : Shape), x₂⟩] h (ix2 r j)
      = if j.val = 0 then x₁ (ix2 r (0 : Fin 1)) else x₂ (ix2 r (0 : Fin 1)) := by
  obtain ⟨jv, hj⟩ := j
  match jv, hj with
  | 0, hj =>
    rw [if_pos rfl]
    refine concatenate_pair_apply_left (t := (⟨2, ![n, 2]⟩ : Shape)) (1 : Fin 2) x₁ x₂ h (ix2 r ⟨0, hj⟩) rfl (ix2 r (0 : Fin 1)) fun b => ?_
    match b with
    | ⟨0, _⟩ => rfl
    | ⟨1, _⟩ => rfl
  | 1, hj =>
    rw [if_neg Nat.one_ne_zero]
    refine concatenate_pair_apply_right (t := (⟨2, ![n, 2]⟩ : Shape)) (1 : Fin 2) x₁ x₂ h (ix2 r ⟨1, hj⟩) rfl rfl (ix2 r (0 : Fin 1)) (fun b hb => ?_) rfl
    match b with
    | ⟨0, _⟩ => rfl
    | ⟨1, _⟩ => exact absurd rfl hb

end Cert.LibPair
-- ==== Proof.KBody.lean ====
/-
  What the kernel body stores for one grid point, read at an index: row `b` of the stored 8 × 2 block is the
  associative-embedding loss of that row's gathered tags and weights. The stored value is two columns side by side,
  the halved push term and the pull term, each a per-row vector kept as a column; the per-row terms are the
  specification's functions of the per-person means, spreads and presence, which in turn are the specification's
  functions of the row's tags and weights.
-/
import proofs.«405738_j66889820668447_3_alg».proof.Proof.Gen.KernelIdeal.Skeleton
import proofs.«405738_j66889820668447_3_alg».proof.Proof.Spec
import proofs.«405738_j66889820668447_3_alg».proof.Proof.KStages
import proofs.«405738_j66889820668447_3_alg».proof.Proof.KRow
import proofs.«405738_j66889820668447_3_alg».proof.Proof.LibColumn
import proofs.«405738_j66889820668447_3_alg».proof.Proof.LibPair
import Idealize.ShloMosaic.Lib.ValueIdx

noncomputable section

namespace Cert.KernelIdeal.Body

open Cert.KernelIdeal Cert.KernelIdeal.Gen Cert.AssocEmbed Idealize.ShloMosaic Idealize.ShloMosaic.ValueIdx

/-- Entry `(b, j)` of the block the body stores, over the four loaded blocks: the loss of row `b`, push at `j = 0`
    and pull at `j = 1`. -/
theorem stored_eq (P0 : Vec Ideal S8x256x256 .f32) (P1 P2 : Vec Ideal S8x510 .i32) (P3 : Vec Ideal S8x510 .f32)
    (b : Fin 8) (j : Fin 2) :
    k0_pay1 (F := Ideal) (k0_pay11 (F := Ideal) (k0_pay7 (F := Ideal) P0 P1 P2 P3) (k0_pay8 (F := Ideal) P3))
        (k0_pay12 (F := Ideal) (k0_pay6 (F := Ideal) P0 P1 P2 P3) (k0_pay8 (F := Ideal) P3)) (k0_pay13 (F := Ideal)) (ix2 b j)
      = loss (Stages.rowTags P0 P1 P2 b) (Stages.rowWeights P3 b) j := by
  unfold k0_pay1
  refine (Cert.LibPair.concat_cols_apply (n := 8) _ _ concatenates_S8x1_S8x1_S8x2_d1 b j).trans ?_
  unfold loss
  have hμ : (fun p => k0_pay6 (F := Ideal) P0 P1 P2 P3 (ix2 b p)) = mean (Stages.rowTags P0 P1 P2 b) (Stages.rowWeights P3 b) :=
    funext fun p => Stages.mean_eq P0 P1 P2 P3 b p
  have hs : (fun p => k0_pay7 (F := Ideal) P0 P1 P2 P3 (ix2 b p)) = spread (Stages.rowTags P0 P1 P2 b) (Stages.rowWeights P3 b) :=
    funext fun p => Stages.spread_eq P0 P1 P2 P3 b p
  have hv : Row.rowPresent (k0_pay8 (F := Ideal) P3) b = present (Stages.rowWeights P3 b) :=
    funext fun p => Stages.present_eq P3 b p
  by_cases hj : j.val = 0
  · rw [if_pos hj, if_pos hj]
    refine (Cert.LibColumn.shapeCast_a_a1_apply (a := 8) _ shapeCasts_S8_S8x1 b (0 : Fin 1)).trans ?_
    show k0_pay12 (F := Ideal) (k0_pay6 (F := Ideal) P0 P1 P2 P3) (k0_pay8 (F := Ideal) P3) (ix1 b) * k0_pay13 (F := Ideal) (ix1 b) = _
    rw [Row.pushRaw_eq, Row.half_eq, hμ, hv]
  · rw [if_neg hj, if_neg hj]
    refine (Cert.LibColumn.shapeCast_a_a1_apply (a := 8) _ shapeCasts_S8_S8x1 b (0 : Fin 1)).trans ?_
    rw [Row.pull_eq, hs, hv]

end Cert.KernelIdeal.Body

end
-- ==== Proof.KHost.lean ====
/-
  The arrays the kernel region finds, read at an index. The host operations before the call reshape the tags of a
  row's 65536 locations to a 256 × 256 heat map, turn each joint's flag into a weight laid out in the row's flat joint
  order, and split each joint's location index into its row coordinate (the floor quotient by 256) and its column
  coordinate (the remainder modulo 256). For an index `n` below 65536 the quotient and remainder are the natural
  numbers' `n / 256` and `n % 256`: no sign correction of the floor division or of the modulo applies.
-/
import proofs.«405738_j66889820668447_3_alg».proof.Proof.Gen.KernelIdeal.Frame
import proofs.«405738_j66889820668447_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.Host

open Cert.KernelIdeal Cert.KernelIdeal.Gen Cert.AssocEmbed Idealize.ShloMosaic Idealize.ShloMosaic.ValueIdx Idealize.ShloMosaic.TcCoe Idealize.SL.Sem

variable (m : (ℓ : Loc nD τ sig) → Buf (Elt Ideal) ℓ) (c : Dev nD)

/-! ## Words: a location index below 65536 divided by 256 -/

/-- A word written from a number below 65536 has that number as its value. -/
private theorem word_toNat (n : ℕ) (hn : n < 65536) : (BitVec.ofNat 32 n).toNat = n := by
  rw [BitVec.toNat_ofNat]; exact Nat.mod_eq_of_lt (by omega)

/-- Such a word is non-negative as a signed integer. -/
private theorem word_msb (n : ℕ) (hn : n < 65536) : (BitVec.ofNat 32 n).msb = false :=
  BitVec.msb_eq_false_iff_two_mul_lt.mpr (by rw [word_toNat n hn]; omega)

/-- Division by the word 256 meets no corner: the divisor is neither 0 nor -1. -/
private theorem no_corner (x : BitVec 32) : ¬ IntOp.SDivCorner x 256#32 := by
  intro hc; rcases hc with hc | ⟨_, hc⟩ <;> exact absurd hc (by decide)

/-- The signed quotient of two non-negative words is the unsigned one: the word of `n / 256`. -/
private theorem divsi_word (n : ℕ) (hn : n < 65536) :
    IntOp.divsi .host (BitVec.ofNat 32 n) 256#32 = BitVec.ofNat 32 (n / 256) := by
  apply BitVec.eq_of_toNat_eq
  have hq : n / 256 < 65536 := by omega
  rw [word_toNat _ hq]
  simp only [IntOp.divsi, if_neg (no_corner _), BitVec.sdiv_eq, word_msb n hn,
    show (256#32 : BitVec 32).msb = false from by decide, BitVec.udiv_eq, BitVec.toNat_udiv, word_toNat n hn]
  rfl

/-- The signed remainder of two non-negative words is the unsigned one: the word of `n % 256`. -/
private theorem remsi_word (n : ℕ) (hn : n < 65536) :
    IntOp.remsi .host (BitVec.ofNat 32 n) 256#32 = BitVec.ofNat 32 (n % 256) := by
  apply BitVec.eq_of_toNat_eq
  have hq : n % 256 < 65536 := by omega
  rw [word_toNat _ hq]
  simp only [IntOp.remsi, if_neg (no_corner _), BitVec.srem_eq, word_msb n hn,
    show (256#32 : BitVec 32).msb = false from by decide, BitVec.umod_eq, BitVec.toNat_umod, word_toNat n hn]
  rfl

/-- The sign of a word as a word: 0, -1 or 1. -/
private def sgn (x : BitVec 32) : BitVec 32 := if x = 0 then 0 else if x.msb then -1 else 1

/-- The floor quotient by 256 on one word: the quotient rounded toward zero, less one when the signs of dividend
    and divisor differ and the remainder is not zero. -/
private def floorDivWord (x : BitVec 32) : BitVec 32 :=
  Scalar.select (IntOp.andi (IntOp.cmpi .ne (sgn x) (sgn 256#32)) (IntOp.cmpi .ne (IntOp.remsi .host x 256#32) 0#32))
    (IntOp.subi (IntOp.divsi .host x 256#32) 1#32) (IntOp.divsi .host x 256#32)

/-- For `n` below 65536 the correction does not apply: either `n` is positive and the signs agree, or `n` is 0 and
    so is the remainder. -/
private theorem floorDivWord_word (n : ℕ) (hn : n < 65536) :
    floorDivWord (BitVec.ofNat 32 n) = BitVec.ofNat 32 (n / 256) := by
  unfold floorDivWord
  rw [divsi_word n hn, remsi_word n hn]
  have hs : IntOp.andi (IntOp.cmpi .ne (sgn (BitVec.ofNat 32 n)) (sgn 256#32))
      (IntOp.cmpi .ne (BitVec.ofNat 32 (n % 256)) 0#32) = 0#1 := by
    by_cases h0 : n = 0
    · subst h0; decide
    · have hne : ¬ BitVec.ofNat 32 n = 0 := by
        intro h
        have h' := congrArg BitVec.toNat h
        rw [word_toNat n hn] at h'
        exact h0 h'
      have h1 : sgn (BitVec.ofNat 32 n) = 1 := by
        unfold sgn; rw [if_neg hne, word_msb n hn]; rfl
      rw [h1, show sgn 256#32 = 1 from by decide, show IntOp.cmpi .ne (1 : BitVec 32) 1 = 0#1 from by decide]
      exact BitVec.zero_and
  rw [hs, select_zero]

/-- The divisor of the modulo as the program computes it: 1 in place of a zero divisor, here 256. -/
private def dvs : BitVec 32 := Scalar.select (IntOp.cmpi .eq 256#32 0#32) 1#32 256#32

private theorem dvs_eq : dvs = 256#32 := by decide

/-- The modulo by 256 on one word: the remainder of the dividend's sign, plus the divisor when the remainder's sign
    differs from the divisor's and the remainder is not zero. -/
private def modWord (x : BitVec 32) : BitVec 32 :=
  Scalar.select (IntOp.andi (IntOp.cmpi .ne (IntOp.cmpi .slt (IntOp.remsi .host x dvs) 0#32) (IntOp.cmpi .slt dvs 0#32))
      (IntOp.cmpi .ne (IntOp.remsi .host x dvs) 0#32))
    (IntOp.addi (IntOp.remsi .host x dvs) dvs) (IntOp.remsi .host x dvs)

/-- For `n` below 65536 the correction does not apply: the remainder `n % 256` and the divisor are both
    non-negative. -/
private theorem modWord_word (n : ℕ) (hn : n < 65536) :
    modWord (BitVec.ofNat 32 n) = BitVec.ofNat 32 (n % 256) := by
  unfold modWord
  rw [dvs_eq, remsi_word n hn]
  have hlt : IntOp.cmpi .slt (BitVec.ofNat 32 (n % 256)) 0#32 = 0#1 := by
    apply eq_zero_of_ne_one
    intro h
    have := (StableHlo.Predicate.slt_ofNat_iff (n % 256) 0 (by omega) (by omega)).mp h
    omega
  rw [hlt, show IntOp.cmpi .slt 256#32 0#32 = 0#1 from by decide, show IntOp.cmpi .ne 0#1 0#1 = 0#1 from by decide,
    show IntOp.andi 0#1 (IntOp.cmpi .ne (BitVec.ofNat 32 (n % 256)) 0#32) = 0#1 from BitVec.zero_and, select_zero]

/-! ## Arrays: the row's flat joint order, and one field of the joints' records -/

section Layout
variable {α : Type}

/-- A 512 × 30 × 17 array laid out 512 × 510 reads, at row `B` and flat joint `17 p + k`, the entry `(B, p, k)`. -/
private theorem flat_read (y : S512x30x17.Idx → α) (B : Fin 512) (p : Fin 30) (k : Fin 17) :
    shapeCast S512x510 y shapeCasts_S512x30x17_S512x510 (ix2 B (joint p k)) = y (ix3 B p k) :=
  shapeCast_apply y _ (ix2 B (joint p k)) (ix3 B p k) (by
    rw [Shape.rowMajor_val_three, Shape.rowMajor_val_two]
    show (B.val * 30 + p.val) * 17 + k.val = B.val * 510 + (p.val * 17 + k.val)
    omega)

/-- Field `o` of the joints' records, its unit axis dropped, reads at `(B, p, k)` the record's entry `(B, p, k, o)`. -/
private theorem field_read (x : S512x30x17x2.Idx → α) (o : Fin 2) (hs : S512x30x17x2.Slices ![0, 0, 0, o.val] S512x30x17x1)
    (B : Fin 512) (p : Fin 30) (k : Fin 17) :
    shapeCast S512x30x17 (extractStridedSlice S512x30x17x1 ![0, 0, 0, o.val] x hs) shapeCasts_S512x30x17x1_S512x30x17 (ix3 B p k)
      = x (ix4 B p k o) := by
  refine (shapeCast_apply _ shapeCasts_S512x30x17x1_S512x30x17 (ix3 B p k) (ix4 B p k (0 : Fin 1)) ?_).trans ?_
  · rw [Shape.rowMajor_val_four, Shape.rowMajor_val_three]
    show ((B.val * 30 + p.val) * 17 + k.val) * 1 + 0 = (B.val * 30 + p.val) * 17 + k.val
    omega
  · refine extractStridedSlice_apply _ x hs (ix4 B p k (0 : Fin 1)) (ix4 B p k o) fun a => ?_
    match a with
    | ⟨0, _⟩ => show B.val = 0 + B.val; omega
    | ⟨1, _⟩ => show p.val = 0 + p.val; omega
    | ⟨2, _⟩ => show k.val = 0 + k.val; omega
    | ⟨3, _⟩ => show o.val = o.val + 0; omega

end Layout

/-! ## The tags -/

/-- The tag operand is the tag argument reshaped twice: its unit axis dropped, then each row's 65536 locations laid out
    256 × 256. -/
private theorem v1_eq : (V m c main_call0_v1 : S512x256x256.Idx → EReal)
    = shapeCast S512x256x256 (shapeCast S512x65536 (m ((c : Thread nD τ).loc main_arg0) : S512x65536x1.Idx → EReal)
        shapeCasts_S512x65536x1_S512x65536) shapeCasts_S512x65536_S512x256x256 := by
  dsimp only [Gen.V, Gen.hostOps0]
  after_results
  rfl

/-- The tag operand: row `B`'s heat map at `(h, l)` is the tag of location `256 h + l`. -/
theorem tags_eq (B : Fin 512) (h l : Fin 256) :
    (V m c main_call0_v1 : S512x256x256.Idx → EReal) (ix3 B h l)
      = (m ((c : Thread nD τ).loc main_arg0) : S512x65536x1.Idx → EReal) (ix3 B (cell h l) (0 : Fin 1)) := by
  rw [v1_eq]
  -- both reshapes keep the row-major position: 65536 B + (256 h + l)
  refine (shapeCast_apply _ shapeCasts_S512x65536_S512x256x256 (ix3 B h l) (ix2 B (cell h l)) ?_).trans ?_
  · rw [Shape.rowMajor_val_two, Shape.rowMajor_val_three]
    show B.val * 65536 + (h.val * 256 + l.val) = (B.val * 256 + h.val) * 256 + l.val
    omega
  · refine shapeCast_apply _ shapeCasts_S512x65536x1_S512x65536 (ix2 B (cell h l)) (ix3 B (cell h l) (0 : Fin 1)) ?_
    rw [Shape.rowMajor_val_two, Shape.rowMajor_val_three]
    show (B.val * 65536 + (h.val * 256 + l.val)) * 1 + 0 = B.val * 65536 + (h.val * 256 + l.val)
    omega

/-! ## The weights -/

/-- The weight operand is the flags (field 1 of the joints' records) compared with the word 1, the bit read as a
    number, in the row's flat joint order. -/
private theorem v10_eq : (V m c main_call0_v10 : S512x510.Idx → EReal)
    = shapeCast S512x510 (uitofp (F := Ideal) .f32 (cmpi .eq
        (shapeCast S512x30x17 (extractStridedSlice S512x30x17x1 ![0, 0, 0, 1]
          (m ((c : Thread nD τ).loc main_arg1) : S512x30x17x2.Idx → BitVec 32) slices_S512x30x17x2_S512x30x17x1_0_0_0_1)
          shapeCasts_S512x30x17x1_S512x30x17)
        (broadcastInDim S512x30x17 ![] bcast_S_S512x30x17 (constantI S_ 32 1#32)))) shapeCasts_S512x30x17_S512x510 := by
  dsimp only [Gen.V, Gen.hostOps0]
  after_results
  rfl

/-- The weight operand: row `B`'s flat joint `17 p + k` carries the weight of that joint's flag. -/
theorem weights_eq (B : Fin 512) (p : Fin 30) (k : Fin 17) :
    (V m c main_call0_v10 : S512x510.Idx → EReal) (ix2 B (joint p k))
      = flagWeight ((m ((c : Thread nD τ).loc main_arg1) : S512x30x17x2.Idx → BitVec 32) (ix4 B p k (1 : Fin 2))) := by
  rw [v10_eq]
  refine (flat_read _ B p k).trans ?_
  -- the conversion and the comparison read elementwise; the broadcast constant reads the word 1 everywhere
  exact congrArg flagWeight (field_read (m ((c : Thread nD τ).loc main_arg1) : S512x30x17x2.Idx → BitVec 32) (1 : Fin 2)
    slices_S512x30x17x2_S512x30x17x1_0_0_0_1 B p k)

/-! ## The location indices split by 256 -/

/-- The location indices (field 0 of the joints' records) in the row's flat joint order. -/
private def locs : S512x510.Idx → BitVec 32 :=
  shapeCast S512x510 (shapeCast S512x30x17 (extractStridedSlice S512x30x17x1 ![0, 0, 0, 0]
    (m ((c : Thread nD τ).loc main_arg1) : S512x30x17x2.Idx → BitVec 32) slices_S512x30x17x2_S512x30x17x1_0_0_0_0)
    shapeCasts_S512x30x17x1_S512x30x17) shapeCasts_S512x30x17_S512x510

/-- Row `B`'s flat joint `17 p + k` carries that joint's location index. -/
private theorem locs_read (B : Fin 512) (p : Fin 30) (k : Fin 17) :
    locs m c (ix2 B (joint p k))
      = (m ((c : Thread nD τ).loc main_arg1) : S512x30x17x2.Idx → BitVec 32) (ix4 B p k (0 : Fin 2)) :=
  (flat_read _ B p k).trans (field_read (m ((c : Thread nD τ).loc main_arg1) : S512x30x17x2.Idx → BitVec 32) (0 : Fin 2)
    slices_S512x30x17x2_S512x30x17x1_0_0_0_0 B p k)

/-- A scalar laid over the 512 × 510 array. -/
private abbrev over {w : ℕ} (v : IVec S_ w) : IVec S512x510 w := broadcastInDim S512x510 ![] bcast_S_S512x510 v

/-- The floor quotient by 256 on the whole array, operation by operation. -/
private def floorDivArr (x : IVec S512x510 32) : IVec S512x510 32 :=
  select
    (andi (cmpi .ne (signi x) (over (signi (id (constantI S_ 32 256#32)))))
      (cmpi .ne (Host.remsi x (over (id (constantI S_ 32 256#32)))) (over (constantI S_ 32 0#32))))
    (subi (Host.divsi x (over (id (constantI S_ 32 256#32)))) (over (constantI S_ 32 1#32)))
    (Host.divsi x (over (id (constantI S_ 32 256#32))))

/-- It reads elementwise. -/
private theorem floorDivArr_apply (x : IVec S512x510 32) (j : S512x510.Idx) : floorDivArr x j = floorDivWord (x j) := rfl

set_option maxHeartbeats 1000000 in
private theorem v11_eq : (V m c main_call0_v11 : S512x510.Idx → BitVec 32) = floorDivArr (locs m c) := by
  dsimp only [Gen.V, Gen.hostOps0]
  after_results_simp
  rfl

/-- The row-coordinate operand: for a location index `n` below 65536, the word of `n / 256`. -/
theorem hi_eq (B : Fin 512) (p : Fin 30) (k : Fin 17) (n : Fin 65536)
    (hn : (m ((c : Thread nD τ).loc main_arg1) : S512x30x17x2.Idx → BitVec 32) (ix4 B p k (0 : Fin 2)) = BitVec.ofNat 32 n.val) :
    (V m c main_call0_v11 : S512x510.Idx → BitVec 32) (ix2 B (joint p k)) = BitVec.ofNat 32 (n.val / 256) := by
  rw [v11_eq, floorDivArr_apply, (locs_read m c B p k).trans hn]
  exact floorDivWord_word n.val n.isLt

/-- The modulo's divisor as the program computes it, a scalar. -/
private def dvsArr : IVec S_ 32 :=
  select (cmpi .eq (id (constantI S_ 32 256#32)) (constantI S_ 32 0#32)) (constantI S_ 32 1#32) (id (constantI S_ 32 256#32))

/-- The modulo by 256 on the whole array, operation by operation. -/
private def modArr (x : IVec S512x510 32) : IVec S512x510 32 :=
  select
    (andi (cmpi .ne (cmpi .slt (Host.remsi x (over dvsArr)) (over (constantI S_ 32 0#32)))
        (over (cmpi .slt dvsArr (constantI S_ 32 0#32))))
      (cmpi .ne (Host.remsi x (over dvsArr)) (over (constantI S_ 32 0#32))))
    (addi (Host.remsi x (over dvsArr)) (over dvsArr))
    (Host.remsi x (over dvsArr))

/-- It reads elementwise. -/
private theorem modArr_apply (x : IVec S512x510 32) (j : S512x510.Idx) : modArr x j = modWord (x j) := rfl

set_option maxHeartbeats 1000000 in
private theorem v12_eq : (V m c main_call0_v12 : S512x510.Idx → BitVec 32) = modArr (locs m c) := by
  dsimp only [Gen.V, Gen.hostOps0]
  after_results_simp
  rfl

/-- The column-coordinate operand: for a location index `n` below 65536, the word of `n % 256`. -/
theorem lo_eq (B : Fin 512) (p : Fin 30) (k : Fin 17) (n : Fin 65536)
    (hn : (m ((c : Thread nD τ).loc main_arg1) : S512x30x17x2.Idx → BitVec 32) (ix4 B p k (0 : Fin 2)) = BitVec.ofNat 32 n.val) :
    (V m c main_call0_v12 : S512x510.Idx → BitVec 32) (ix2 B (joint p k)) = BitVec.ofNat 32 (n.val % 256) := by
  rw [v12_eq, modArr_apply, (locs_read m c B p k).trans hn]
  exact modWord_word n.val n.isLt

end Cert.KernelIdeal.Host

end
-- ==== Proof.KGather.lean ====
/-
  The kernel's gather, read at an index. The body turns the row coordinate `hi` of each joint's location into a one-hot
  row over the 256 heat-map rows and contracts it with the 256 × 256 tag block (selecting the whole row `hi`), then
  keeps, of that row, the one entry whose column is `lo` and sums the rest as zeros. So the tag it leaves for a joint
  is the block's entry at `(hi, lo)`: a sum in which every term but one is a product with zero or a zero fill.
-/
import proofs.«405738_j66889820668447_3_alg».proof.Proof.Gen.KernelIdeal.Skeleton
import proofs.«405738_j66889820668447_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tags

open Cert.KernelIdeal Cert.KernelIdeal.Gen Cert.AssocEmbed Idealize.ShloMosaic Idealize.ShloMosaic.ValueIdx

/-- A row of coordinate words cast to a column and broadcast along a new last axis reads, at `(b, j, l)`, the word
    at `(b, j)`. -/
private theorem coordWord_apply (P : IVec S8x510 32) (hc : S8x510.ShapeCasts S8x510x1)
    (hb : S8x510x1.Broadcasts S8x510x256) (b : Fin 8) (j : Fin 510) (l : Fin 256) :
    broadcastTo S8x510x256 (shapeCast S8x510x1 P hc) hb (ix3 b j l) = P (ix2 b j) := by
  refine (broadcastTo_apply _ hb (ix3 b j l) (ix3 b j (0 : Fin 1)) fun a => ?_).trans ?_
  · match a with
    | ⟨0, _⟩ => rfl
    | ⟨1, _⟩ => rfl
    | ⟨2, _⟩ => rfl
  · refine shapeCast_apply P hc _ (ix2 b j) ?_
    rw [Shape.rowMajor_val_two, Shape.rowMajor_val_three]
    show b.val * 510 + j.val = (b.val * 510 + j.val) * 1 + 0
    omega

/-- The counting words along the last axis, broadcast over the block, read at `(b, j, l)` the word of `l`. -/
private theorem lastAxisWord_apply (hi : S1x1x256.Iotas .tc 32 [2]) (hb : S1x1x256.Broadcasts S8x510x256)
    (b : Fin 8) (j : Fin 510) (l : Fin 256) :
    broadcastTo S8x510x256 (iota .tc S1x1x256 32 [2] hi) hb (ix3 b j l) = BitVec.ofNat 32 l.val := by
  refine (broadcastTo_apply _ hb (ix3 b j l) (ix3 (0 : Fin 1) (0 : Fin 1) l) fun a => ?_).trans ?_
  · match a with
    | ⟨0, _⟩ => rfl
    | ⟨1, _⟩ => rfl
    | ⟨2, _⟩ => rfl
  · exact iota_single_apply .tc S1x1x256 32 2 hi _

/-- Words of numbers below 256 are equal exactly when the numbers are. -/
private theorem ofNat_eq_iff (a c : Fin 256) : BitVec.ofNat 32 a.val = BitVec.ofNat 32 c.val ↔ a = c := by
  constructor
  · intro h
    have h' := congrArg BitVec.toNat h
    rw [BitVec.toNat_ofNat, BitVec.toNat_ofNat] at h'
    have ha := a.isLt
    have hc := c.isLt
    apply Fin.ext
    omega
  · intro h; rw [h]

/-- The comparison bit of two such words. -/
private theorem cmpi_eq_ofNat (a c : Fin 256) :
    IntOp.cmpi .eq (BitVec.ofNat 32 a.val) (BitVec.ofNat 32 c.val) = if a = c then 1#1 else 0#1 := by
  unfold IntOp.cmpi
  by_cases h : a = c
  · rw [if_pos h, h]; simp
  · rw [if_neg h]
    have hne : ¬ BitVec.ofNat 32 a.val = BitVec.ofNat 32 c.val := fun e => h ((ofNat_eq_iff a c).1 e)
    have hb : (BitVec.ofNat 32 a.val == BitVec.ofNat 32 c.val) = false := beq_eq_false_iff_ne.2 hne
    show BitVec.ofBool (BitVec.ofNat 32 a.val == BitVec.ofNat 32 c.val) = 0#1
    rw [hb]; rfl

/-- A one-bit word widened to 32 bits and read as a signed integer, as a float: 1 for the bit 1, 0 for the bit 0. -/
private theorem bitFloat_one : (FloatOps.sitofp (F := Ideal) .f32 ((1#1).setWidth 32) : EReal) = 1 := by
  show ((((1#1).setWidth 32).toInt : ℝ) : EReal) = 1
  have h : ((1#1).setWidth 32).toInt = 1 := by decide
  rw [h]; norm_num
private theorem bitFloat_zero : (FloatOps.sitofp (F := Ideal) .f32 ((0#1).setWidth 32) : EReal) = 0 := by
  show ((((0#1).setWidth 32).toInt : ℝ) : EReal) = 0
  have h : ((0#1).setWidth 32).toInt = 0 := by decide
  rw [h]; norm_num

/-- The block product's dimension numbers: batch axis 0 of both, the left operand's axis 2 contracted with the
    right operand's axis 1. -/
private abbrev D := dot_S8x510x256_S8x256x256_S8x510x256_2_1_1_2_0_0

/-- The left operand's index under the product at `(b, j, l)`, contraction position `c`: `(b, j, c)`. -/
private theorem lhsIdx_eq (b : Fin 8) (j : Fin 510) (l c : Fin 256) :
    D.lhsIdx (ix3 b j l) ((contrEquiv1 D 256 rfl rfl).symm c) = ix3 b j c := by
  have c3 := contrEquiv1_symm_val D 256 rfl rfl c
  funext ax; apply Fin.ext
  match ax with
  | ⟨0, _⟩ => simp [DotDims.lhsIdx, D, dot_S8x510x256_S8x256x256_S8x510x256_2_1_1_2_0_0]; rfl
  | ⟨1, _⟩ => simp [DotDims.lhsIdx, D, dot_S8x510x256_S8x256x256_S8x510x256_2_1_1_2_0_0]; rfl
  | ⟨2, _⟩ => simp [DotDims.lhsIdx, D, dot_S8x510x256_S8x256x256_S8x510x256_2_1_1_2_0_0]; exact c3

/-- The right operand's: `(b, c, l)`. -/
private theorem rhsIdx_eq (b : Fin 8) (j : Fin 510) (l c : Fin 256) :
    D.rhsIdx (ix3 b j l) ((contrEquiv1 D 256 rfl rfl).symm c) = ix3 b c l := by
  have c3 := contrEquiv1_symm_val D 256 rfl rfl c
  funext ax; apply Fin.ext
  match ax with
  | ⟨0, _⟩ => simp [DotDims.rhsIdx, D, dot_S8x510x256_S8x256x256_S8x510x256_2_1_1_2_0_0]; rfl
  | ⟨1, _⟩ => simp [DotDims.rhsIdx, D, dot_S8x510x256_S8x256x256_S8x510x256_2_1_1_2_0_0]; exact c3
  | ⟨2, _⟩ => simp [DotDims.rhsIdx, D, dot_S8x510x256_S8x256x256_S8x510x256_2_1_1_2_0_0]; rfl

/-- The block product into the zero accumulator, at `(b, j, l)`: the sum over the contracted coordinate. -/
private theorem product_apply (A : FVec Ideal S8x510x256 .f32) (B : FVec Ideal S8x256x256 .f32) (b : Fin 8) (j : Fin 510)
    (l : Fin 256) :
    matmul D (some .fp32) A B (constant S8x510x256 .f32 0x00000000#32) (ix3 b j l)
      = ∑ c : Fin 256, A (ix3 b j c) * B (ix3 b c l) := by
  refine (Ideal.matmul_constant_zero_apply D (some .fp32) A B (ix3 b j l)).trans ?_
  rw [← Equiv.sum_comp (contrEquiv1 D 256 rfl rfl).symm]
  refine Finset.sum_congr rfl fun c _ => ?_
  rw [lhsIdx_eq, rhsIdx_eq]

/-- Reducing the block over its last axis: the source index over result position `(b, j)` with reduced coordinate
    `l` is `(b, j, l)`. -/
private theorem lift_last (h : S8x510x256.Reduces [2] S8x510) (b : Fin 8) (j : Fin 510) (l : Fin 256) :
    h.lift (ix2 b j) l = ix3 b j l := by
  funext c; apply Fin.ext
  match c with
  | ⟨0, _⟩ => rfl
  | ⟨1, _⟩ => rfl
  | ⟨2, _⟩ => rfl

/-- The comparison of the broadcast coordinate word with the counting words, at `(b, j, l)`, when the word at
    `(b, j)` is the word of `r`: the bit of `r = l`. -/
private theorem hit_apply (P : IVec S8x510 32) (hs : S8x510.ShapeCasts S8x510) (hc : S8x510.ShapeCasts S8x510x1)
    (hb : S8x510x1.Broadcasts S8x510x256) (hi : S1x1x256.Iotas .tc 32 [2]) (hb' : S1x1x256.Broadcasts S8x510x256)
    (b : Fin 8) (j : Fin 510) (l r : Fin 256) (hr : P (ix2 b j) = BitVec.ofNat 32 r.val) :
    cmpi .eq (broadcastTo S8x510x256 (shapeCast S8x510x1 (shapeCast S8x510 P hs) hc) hb)
        (broadcastTo S8x510x256 (iota .tc S1x1x256 32 [2] hi) hb') (ix3 b j l)
      = if r = l then 1#1 else 0#1 := by
  show IntOp.cmpi .eq (broadcastTo S8x510x256 (shapeCast S8x510x1 (shapeCast S8x510 P hs) hc) hb (ix3 b j l))
      (broadcastTo S8x510x256 (iota .tc S1x1x256 32 [2] hi) hb' (ix3 b j l)) = _
  rw [shapeCast_self, coordWord_apply, lastAxisWord_apply, hr, cmpi_eq_ofNat]

/-- That bit widened and converted: the one-hot row's entry, 1 at `l = r` and 0 elsewhere. -/
private theorem oneHot_apply (P : IVec S8x510 32) (hs : S8x510.ShapeCasts S8x510) (hc : S8x510.ShapeCasts S8x510x1)
    (hb : S8x510x1.Broadcasts S8x510x256) (hi : S1x1x256.Iotas .tc 32 [2]) (hb' : S1x1x256.Broadcasts S8x510x256)
    (hlt : 1 < 32) (b : Fin 8) (j : Fin 510) (l r : Fin 256) (hr : P (ix2 b j) = BitVec.ofNat 32 r.val) :
    (sitofp .f32 (extui 32 (cmpi .eq (broadcastTo S8x510x256 (shapeCast S8x510x1 (shapeCast S8x510 P hs) hc) hb)
        (broadcastTo S8x510x256 (iota .tc S1x1x256 32 [2] hi) hb')) hlt) : FVec Ideal S8x510x256 .f32) (ix3 b j l)
      = if r = l then 1 else 0 := by
  show FloatOps.sitofp .f32 ((cmpi .eq (broadcastTo S8x510x256 (shapeCast S8x510x1 (shapeCast S8x510 P hs) hc) hb)
        (broadcastTo S8x510x256 (iota .tc S1x1x256 32 [2] hi) hb') (ix3 b j l)).setWidth 32) = _
  rw [hit_apply P hs hc hb hi hb' b j l r hr]
  by_cases h : r = l
  · rw [if_pos h, if_pos h]; exact bitFloat_one
  · rw [if_neg h, if_neg h]; exact bitFloat_zero

/-- The tag the body gathers for joint `k` of person `p` in row `b` of the block, when the joint's row and column
    coordinates are the words of `hi` and `lo`: the tag block's entry at `(b, hi, lo)`. -/
theorem gathered_eq (P0 : Vec Ideal S8x256x256 .f32) (P1 P2 : Vec Ideal S8x510 .i32) (b : Fin 8) (p : Fin 30) (k : Fin 17)
    (hi lo : Fin 256) (h1 : P1 (ix2 b (joint p k)) = BitVec.ofNat 32 hi.val) (h2 : P2 (ix2 b (joint p k)) = BitVec.ofNat 32 lo.val) :
    k0_pay2 (F := Ideal) P0 P1 P2 (ix3 b p k) = P0 (ix3 b hi lo) := by
  unfold k0_pay2
  -- the regrouping 8 × 510 → 8 × 30 × 17 keeps the row-major position: (b, p, k) reads (b, 17 p + k)
  refine (shapeCast_apply _ shapeCasts_S8x510_S8x30x17 (ix3 b p k) (ix2 b (joint p k)) ?_).trans ?_
  · rw [Shape.rowMajor_val_two, Shape.rowMajor_val_three]
    show b.val * 510 + (p.val * 17 + k.val) = (b.val * 30 + p.val) * 17 + k.val
    omega
  -- the sum over the last axis
  refine (Ideal.multiReduction_add_single _ 0x00000000#32 reduces_S8x510x256_S8x510 (.inl rfl) rfl (ix2 b (joint p k))).trans ?_
  refine (Finset.sum_eq_single (lo : Fin 256) (fun l _ hne => ?_) (fun h => absurd (Finset.mem_univ _) h)).trans ?_
  · -- a column other than `lo`: the zero fill
    rw [lift_last, select_apply, hit_apply P2 _ _ _ _ _ b (joint p k) l lo h2, if_neg (Ne.symm hne), select_zero]
    exact Ideal.ofBits_zero_f32
  · -- column `lo`: the selected row's entry
    rw [lift_last, select_apply, hit_apply P2 _ _ _ _ _ b (joint p k) lo lo h2, if_pos rfl, select_one]
    refine (product_apply _ _ b (joint p k) lo).trans ?_
    refine (Finset.sum_eq_single hi (fun c _ hne => ?_) (fun h => absurd (Finset.mem_univ _) h)).trans ?_
    · rw [oneHot_apply P1 _ _ _ _ _ _ b (joint p k) c hi h1, if_neg (Ne.symm hne), zero_mul]
    · rw [oneHot_apply P1 _ _ _ _ _ _ b (joint p k) hi hi h1, if_pos rfl, one_mul, shapeCast_self]

end Cert.KernelIdeal.Tags

end
-- ==== Proof.Result.lean ====
/-
  The result as one function of the two argument arrays: row `B` of the [512, 2] result is the loss of the row's
  tags gathered at the joints' location indices and of the joints' flag weights. A location index is read as a
  natural number modulo 65536, which for an index in range is the index itself.
  Also here: that a block of 8 rows of the kernel's four operands, read through the facts the kernel's host glue
  provides (the heat-map layout of the tags, the split of an index into row and column coordinate, the weights in flat
  joint order), gives exactly these tags and weights.
-/
import proofs.«405738_j66889820668447_3_alg».proof.Proof.Spec
import proofs.«405738_j66889820668447_3_alg».proof.Proof.KGather
import proofs.«405738_j66889820668447_3_alg».proof.Proof.KStages
import Idealize.ShloMosaic.Lib.ValueIdx

noncomputable section

namespace Cert.AssocEmbed

open Idealize.ShloMosaic Idealize.ShloMosaic.ValueIdx

/-- The tags array `[512, 65536, 1]` and the keypoints array `[512, 30, 17, 2]` as index functions. -/
abbrev TagsArr : Type := (⟨3, ![512, 65536, 1]⟩ : Shape).Idx → EReal
abbrev KeysArr : Type := (⟨4, ![512, 30, 17, 2]⟩ : Shape).Idx → BitVec 32

/-- The tag of row `B` at the location joint `k` of person `p` points to. -/
def tagAt (x0 : TagsArr) (x1 : KeysArr) (B : Fin 512) (p : Fin 30) (k : Fin 17) : EReal :=
  x0 (ix3 B ⟨(x1 (ix4 B p k (0 : Fin 2))).toNat % 65536, Nat.mod_lt _ (by decide)⟩ (0 : Fin 1))

/-- The weight of joint `k` of person `p` in row `B`. -/
def weightAt (x1 : KeysArr) (B : Fin 512) (p : Fin 30) (k : Fin 17) : EReal :=
  flagWeight (x1 (ix4 B p k (1 : Fin 2)))

/-- The whole result. -/
def result (x0 : TagsArr) (x1 : KeysArr) : (⟨2, ![512, 2]⟩ : Shape).Idx → EReal :=
  fun i => loss (tagAt x0 x1 (i 0)) (weightAt x1 (i 0)) (i 1)

theorem result_apply (x0 : TagsArr) (x1 : KeysArr) (B : Fin 512) (j : Fin 2) :
    result x0 x1 (ix2 B j) = loss (tagAt x0 x1 B) (weightAt x1 B) j := rfl

/-- For a location index that is the word of `n < 65536`, the tag read is the tag of location `n`. -/
theorem tagAt_of_word (x0 : TagsArr) (x1 : KeysArr) (B : Fin 512) (p : Fin 30) (k : Fin 17) (n : Fin 65536)
    (hn : x1 (ix4 B p k (0 : Fin 2)) = BitVec.ofNat 32 n.val) : tagAt x0 x1 B p k = x0 (ix3 B n (0 : Fin 1)) := by
  unfold tagAt
  have hv : (x1 (ix4 B p k (0 : Fin 2))).toNat % 65536 = n.val := by
    rw [hn, BitVec.toNat_ofNat]
    have := n.isLt
    omega
  exact congrArg (fun q : Fin 65536 => x0 (ix3 B q (0 : Fin 1))) (Fin.ext hv)

open Cert.KernelIdeal in
/-- Row `b` of a block of the kernel's operands is row `B` of the specification, when the block's rows are rows of
    arrays `T` (heat maps), `H`, `L` (row and column coordinates), `W` (weights) that relate to the argument arrays as
    the kernel's host glue makes them, and every location index is in range. -/
theorem block_row_eq (x0 : TagsArr) (x1 : KeysArr)
    (T : (⟨3, ![512, 256, 256]⟩ : Shape).Idx → EReal) (H L : (⟨2, ![512, 510]⟩ : Shape).Idx → BitVec 32)
    (W : (⟨2, ![512, 510]⟩ : Shape).Idx → EReal)
    (hT : ∀ (B : Fin 512) (h l : Fin 256), T (ix3 B h l) = x0 (ix3 B (cell h l) (0 : Fin 1)))
    (hW : ∀ (B : Fin 512) (p : Fin 30) (k : Fin 17), W (ix2 B (joint p k)) = flagWeight (x1 (ix4 B p k (1 : Fin 2))))
    (hH : ∀ (B : Fin 512) (p : Fin 30) (k : Fin 17) (n : Fin 65536), x1 (ix4 B p k (0 : Fin 2)) = BitVec.ofNat 32 n.val →
      H (ix2 B (joint p k)) = BitVec.ofNat 32 (n.val / 256))
    (hL : ∀ (B : Fin 512) (p : Fin 30) (k : Fin 17) (n : Fin 65536), x1 (ix4 B p k (0 : Fin 2)) = BitVec.ofNat 32 n.val →
      L (ix2 B (joint p k)) = BitVec.ofNat 32 (n.val % 256))
    (hr : ∀ (B : Fin 512) (p : Fin 30) (k : Fin 17), ∃ n : Fin 65536, x1 (ix4 B p k (0 : Fin 2)) = BitVec.ofNat 32 n.val)
    (P0 : Vec Ideal S8x256x256 .f32) (P1 P2 : Vec Ideal S8x510 .i32) (P3 : Vec Ideal S8x510 .f32) (B : Fin 512) (b : Fin 8)
    (e0 : ∀ h l : Fin 256, P0 (ix3 b h l) = T (ix3 B h l)) (e1 : ∀ q : Fin 510, P1 (ix2 b q) = H (ix2 B q))
    (e2 : ∀ q : Fin 510, P2 (ix2 b q) = L (ix2 B q)) (e3 : ∀ q : Fin 510, P3 (ix2 b q) = W (ix2 B q)) (j : Fin 2) :
    loss (Cert.KernelIdeal.Stages.rowTags P0 P1 P2 b) (Cert.KernelIdeal.Stages.rowWeights P3 b) j = result x0 x1 (ix2 B j) := by
  rw [result_apply]
  have hw : Cert.KernelIdeal.Stages.rowWeights P3 b = weightAt x1 B := by
    funext p k
    show P3 (ix2 b (joint p k)) = _
    rw [e3, hW]
    rfl
  have hg : Cert.KernelIdeal.Stages.rowTags P0 P1 P2 b = tagAt x0 x1 B := by
    funext p k
    obtain ⟨n, hn⟩ := hr B p k
    have hnlt := n.isLt
    have hhi : n.val / 256 < 256 := by omega
    have hlo : n.val % 256 < 256 := Nat.mod_lt _ (by decide)
    show Cert.KernelIdeal.Gen.k0_pay2 (F := Ideal) P0 P1 P2 (ix3 b p k) = _
    rw [Cert.KernelIdeal.Tags.gathered_eq P0 P1 P2 b p k ⟨n.val / 256, hhi⟩ ⟨n.val % 256, hlo⟩
      ((e1 _).trans (hH B p k n hn)) ((e2 _).trans (hL B p k n hn)),
      e0, hT, tagAt_of_word x0 x1 B p k n hn]
    refine congrArg (fun q : Fin 65536 => x0 (ix3 B q (0 : Fin 1))) (Fin.ext ?_)
    show n.val / 256 * 256 + n.val % 256 = n.val
    omega
  rw [hw, hg]

end Cert.AssocEmbed

end
-- ==== Proof.KBlocks.lean ====
/-
  From the blocks to the array. Grid point `t` of the 64 handles rows `8 t … 8 t + 7`: every operand's block at `t` is
  those rows of its array (a block's coordinate is block index × block extent + the coordinate inside the block, and
  each index map sends `t` to block `t` on the row axis and block 0 on the others), and what the point writes back is
  those rows of the result. The 64 blocks of the output tile its 512 rows (row `r` lies in block `r / 8`), so the
  output array ends as the whole result.
-/
import proofs.«405738_j66889820668447_3_alg».proof.Proof.Gen.KernelIdeal.Value
import proofs.«405738_j66889820668447_3_alg».proof.Proof.KBody
import proofs.«405738_j66889820668447_3_alg».proof.Proof.KHost
import proofs.«405738_j66889820668447_3_alg».proof.Proof.Result
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Value Cert.AssocEmbed
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Every index map sends grid point `t` to block `t` along the rows and block 0 along the other axes. -/
theorem index_maps : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `b` of grid point `t`'s blocks is row `8 t + b` of the arrays. -/
def rowOf (t : Fin cfg0.N) (b : Fin 8) : Fin 512 :=
  ⟨t.val * 8 + b.val, by have ht : t.val < 64 := N_0 ▸ t.isLt; have := b.isLt; omega⟩

/-- The location indices are all in range: what the precondition gives, stated of the launch memory. -/
def InRange : Prop :=
  ∀ (c : Dev nD) (B : Fin 512) (p : Fin 30) (k : Fin 17),
    ∃ n : Fin 65536, (m ((c : Thread nD τ).loc main_arg1) : S512x30x17x2.Idx → BitVec 32) (ix4 B p k (0 : Fin 2)) = BitVec.ofNat 32 n.val

/-- The result as the function of the launch memory's argument arrays on core `c`. -/
abbrev resultOf (c : Dev nD) : S512x2.Idx → EReal :=
  result (m ((c : Thread nD τ).loc main_arg0)) (m ((c : Thread nD τ).loc main_arg1))

set_option maxHeartbeats 3200000 in
/-- What grid point `t` writes back is its block of the result. -/
theorem flushed_eq (hr : InRange m) (c : Dev nD) (t : Fin cfg0.N) :
    (dats m 0 c).flushed 4 t = ((cfg0.win 4).blk t).view.read (Elt Ideal) (resultOf m c) := by
  rw [flushed4]
  unfold out0_4
  rw [View.canon_unit_zero zero2]
  simp only [View.ld_unit_zero (S := S8x256x256) zero3, View.ld_unit_zero (S := S8x510) zero2]
  obtain ⟨e00, e01, e02, e10, e11, e20, e21, e30, e31, e40, e41⟩ := index_maps t
  funext y
  obtain ⟨b, j, rfl⟩ : ∃ (b : Fin 8) (j : Fin 2), y = ix2 b j := ⟨y 0, y 1, eq_ix2 y⟩
  have hb := b.isLt
  have hj := j.isLt
  show k0_pay1 (F := Ideal) (k0_pay11 (F := Ideal) (k0_pay7 (F := Ideal) (iblk m c 0 t) (iblk m c 1 t) (iblk m c 2 t) (iblk m c 3 t)) (k0_pay8 (F := Ideal) (iblk m c 3 t)))
      (k0_pay12 (F := Ideal) (k0_pay6 (F := Ideal) (iblk m c 0 t) (iblk m c 1 t) (iblk m c 2 t) (iblk m c 3 t)) (k0_pay8 (F := Ideal) (iblk m c 3 t))) (k0_pay13 (F := Ideal)) (ix2 b j)
    = resultOf m c (((cfg0.win 4).blk t).view.emb (ix2 b j))
  refine (Body.stored_eq (iblk m c 0 t) (iblk m c 1 t) (iblk m c 2 t) (iblk m c 3 t) b j).trans ?_
  have hB : ((cfg0.win 4).blk t).view.emb (ix2 b j) = ix2 (rowOf t b) j := by
    funext a; apply Fin.ext
    match a with
    | ⟨0, _⟩ => show win0_4.index t (0 : Fin 2) * 8 + 1 * b.val = t.val * 8 + b.val; omega
    | ⟨1, _⟩ => show win0_4.index t (1 : Fin 2) * 2 + 1 * j.val = j.val; omega
  rw [hB]
  refine block_row_eq _ _ (V m c main_call0_v1) (V m c main_call0_v11) (V m c main_call0_v12) (V m c main_call0_v10)
    (Host.tags_eq m c) (Host.weights_eq m c) (Host.hi_eq m c) (Host.lo_eq m c) (hr c)
    (iblk m c 0 t) (iblk m c 1 t) (iblk m c 2 t) (iblk m c 3 t) (rowOf t b) b ?_ ?_ ?_ ?_ j
  · intro h l
    have hh := h.isLt
    have hl := l.isLt
    show (V m c main_call0_v1 : S512x256x256.Idx → EReal) (((cfg0.win 0).blk t).view.emb (ix3 b h l)) = (V m c main_call0_v1 : S512x256x256.Idx → EReal) (ix3 (rowOf t b) h l)
    refine congrArg (V m c main_call0_v1 : S512x256x256.Idx → EReal) (funext fun a => Fin.ext ?_)
    match a with
    | ⟨0, _⟩ => show win0_0.index t (0 : Fin 3) * 8 + 1 * b.val = t.val * 8 + b.val; omega
    | ⟨1, _⟩ => show win0_0.index t (1 : Fin 3) * 256 + 1 * h.val = h.val; omega
    | ⟨2, _⟩ => show win0_0.index t (2 : Fin 3) * 256 + 1 * l.val = l.val; omega
  · intro q
    have hq := q.isLt
    show (V m c main_call0_v11 : S512x510.Idx → BitVec 32) (((cfg0.win 1).blk t).view.emb (ix2 b q)) = (V m c main_call0_v11 : S512x510.Idx → BitVec 32) (ix2 (rowOf t b) q)
    refine congrArg (V m c main_call0_v11 : S512x510.Idx → BitVec 32) (funext fun a => Fin.ext ?_)
    match a with
    | ⟨0, _⟩ => show win0_1.index t (0 : Fin 2) * 8 + 1 * b.val = t.val * 8 + b.val; omega
    | ⟨1, _⟩ => show win0_1.index t (1 : Fin 2) * 510 + 1 * q.val = q.val; omega
  · intro q
    have hq := q.isLt
    show (V m c main_call0_v12 : S512x510.Idx → BitVec 32) (((cfg0.win 2).blk t).view.emb (ix2 b q)) = (V m c main_call0_v12 : S512x510.Idx → BitVec 32) (ix2 (rowOf t b) q)
    refine congrArg (V m c main_call0_v12 : S512x510.Idx → BitVec 32) (funext fun a => Fin.ext ?_)
    match a with
    | ⟨0, _⟩ => show win0_2.index t (0 : Fin 2) * 8 + 1 * b.val = t.val * 8 + b.val; omega
    | ⟨1, _⟩ => show win0_2.index t (1 : Fin 2) * 510 + 1 * q.val = q.val; omega
  · intro q
    have hq := q.isLt
    show (V m c main_call0_v10 : S512x510.Idx → EReal) (((cfg0.win 3).blk t).view.emb (ix2 b q)) = (V m c main_call0_v10 : S512x510.Idx → EReal) (ix2 (rowOf t b) q)
    refine congrArg (V m c main_call0_v10 : S512x510.Idx → EReal) (funext fun a => Fin.ext ?_)
    match a with
    | ⟨0, _⟩ => show win0_3.index t (0 : Fin 2) * 8 + 1 * b.val = t.val * 8 + b.val; omega
    | ⟨1, _⟩ => show win0_3.index t (1 : Fin 2) * 510 + 1 * q.val = q.val; omega

/-- An index of the output array lies in grid point `t`'s block iff each coordinate is in the block's range. -/
theorem mem_block (t : Fin cfg0.N) (i : S512x2.Idx) :
    i ∈ ((cfg0.win 4).blk t).view.set ↔ ∀ a : Fin 2, win0_4.index t a * S8x2.size a ≤ (i a).val ∧ (i a).val < win0_4.index t a * S8x2.size a + S8x2.size a := by
  show i ∈ ((View.whole main_v0).slice (win0_4.rect t)).set ↔ _
  rw [View.set_slice_whole, Rect.mem_set_unit]
  exact Iff.rfl

/-- Every row of the output lies in some grid point's block: row `r` in block `r / 8`. -/
theorem covered (i : S512x2.Idx) : ∃ t : Fin cfg0.N, (cfg0.win 4).flush t = true ∧ i ∈ ((cfg0.win 4).blk t).view.set := by
  have hi0 : (i 0).val < 512 := (i 0).isLt
  have hi1 : (i 1).val < 2 := (i 1).isLt
  have hN : grid0.N = 64 := N_0
  let t : Fin cfg0.N := ⟨(i 0).val / 8, by show (i 0).val / 8 < grid0.N; omega⟩
  obtain ⟨-, -, -, -, -, -, -, -, -, e40, e41⟩ := index_maps t
  have ht : t.val = (i 0).val / 8 := rfl
  refine ⟨t, flush0_4 t, ?_⟩
  rw [mem_block]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 2 ≤ (i 1).val ∧ (i 1).val < win0_4.index t (1 : Fin 2) * 2 + 2; omega

/-- The output array after the run is the whole result. -/
theorem final_eq (hr : InRange m) (c : Dev nD) : (dats m 0 c).arrAt 4 cfg0.N = resultOf m c :=
  (dats m 0 c).arrAt_eq_of_cover 4 (resultOf m c) (fun t _ => flushed_eq m hr c t) covered

/-- The kernel's run with its output array named: the result of the launch memory's argument arrays, which end
    unchanged. -/
theorem run (hr : InRange m) : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m hr c), (h c).2⟩) (run_blocks m ρ)

end Cert.KernelIdeal.Blocks

end
-- ==== Proof.RGather.lean ====
/-
  The reference's gather and weights, read at an index. `take_along_axis` wraps a negative index by the axis length,
  tests the result against the range [0, 65535], gathers, and fills a not-a-number where the test fails. For an index
  `n` below 65536 nothing wraps, the test passes, and the gathered entry is the tag of location `n`. A joint's weight
  is its flag compared with the word 1, as a float.
-/
import proofs.«405738_j66889820668447_3_alg».proof.Proof.RefReadP
import proofs.«405738_j66889820668447_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.ReduceAll
import Idealize.ShloMosaic.Lib.StableHlo.Predicate

noncomputable section

namespace Cert.ReferenceIdeal.Tags

open Cert.ReferenceIdeal Cert.ReferenceIdeal.Gen Cert.ReferenceIdeal.ReadP Cert.AssocEmbed Idealize.ShloMosaic Idealize.ShloMosaic.ValueIdx

variable (x0 : (⟨S512x65536x1, .f32⟩ : BufTy).Contents (Elt Ideal)) (x1 : (⟨S512x30x17x2, .i32⟩ : BufTy).Contents (Elt Ideal))

/-! ### Flat positions: joint (B, p, k) is at ((B · 30 + p) · 17 + k) among all joints -/

private theorem flat_div (B p k : Nat) (hp : p < 30) (hk : k < 17) : ((B * 30 + p) * 17 + k) / 510 = B := by omega
private theorem flat_mod (B p k : Nat) (hp : p < 30) (hk : k < 17) : ((B * 30 + p) * 17 + k) % 510 = p * 17 + k := by omega
private theorem flat_mid (B p k : Nat) (hp : p < 30) (hk : k < 17) : ((B * 30 + p) * 17 + k) / 17 % 30 = p := by omega
private theorem flat_low (B p k : Nat) (hp : p < 30) (hk : k < 17) : ((B * 30 + p) * 17 + k) / 1 % 17 = k := by omega

/-- Joint (B, p, k) of the 512 × 30 × 17 array sits at row B, flat joint `joint p k`, of the 512 × 510 array. -/
private theorem idx_joint (B : Fin 512) (p : Fin 30) (k : Fin 17) :
    idx_main_v10 (ix3 B p k) = ix2 B (joint p k) := by
  funext a
  refine Fin.ext ?_
  match a with
  | ⟨0, _⟩ => exact flat_div B.val p.val k.val p.isLt k.isLt
  | ⟨1, _⟩ => exact flat_mod B.val p.val k.val p.isLt k.isLt

/-- The same joint's first word, followed back from the 512 × 510 array through the two reshapes and the slice. -/
private theorem word_idx (B : Fin 512) (p : Fin 30) (k : Fin 17) :
    idx_main_v0 (idx_main_v1 (idx_main_v8 (ix2 B (joint p k)))) = ix4 B p k (0 : Fin 2) := by
  funext a
  refine Fin.ext ?_
  have hp := p.isLt
  have hk := k.isLt
  match a with
  | ⟨0, _⟩ =>
    show ((((B.val * 510 + (p.val * 17 + k.val)) / 510 * 30 + (B.val * 510 + (p.val * 17 + k.val)) / 17 % 30) * 17
      + (B.val * 510 + (p.val * 17 + k.val)) % 17) / 510) = B.val
    omega
  | ⟨1, _⟩ =>
    show ((((B.val * 510 + (p.val * 17 + k.val)) / 510 * 30 + (B.val * 510 + (p.val * 17 + k.val)) / 17 % 30) * 17
      + (B.val * 510 + (p.val * 17 + k.val)) % 17) / 17 % 30) = p.val
    omega
  | ⟨2, _⟩ =>
    show ((((B.val * 510 + (p.val * 17 + k.val)) / 510 * 30 + (B.val * 510 + (p.val * 17 + k.val)) / 17 % 30) * 17
      + (B.val * 510 + (p.val * 17 + k.val)) % 17) / 1 % 17) = k.val
    omega
  | ⟨3, _⟩ => rfl

/-- The location index of joint (B, p, k), read from the 512 × 510 array of indices. -/
private theorem word_eq (B : Fin 512) (p : Fin 30) (k : Fin 17) :
    val_main_v8 (F := Ideal) x1 (ix2 B (joint p k)) = (x1 : S512x30x17x2.Idx → BitVec 32) (ix4 B p k (0 : Fin 2)) := by
  rw [val_main_v8_apply, val_main_v1_apply, val_main_v0_apply, word_idx]

/-! ### Words of numbers below 65536 -/

/-- The word of a number below 65536 has that number as its value, which is below 2³¹. -/
private theorem toNat_word (n : Fin 65536) : (BitVec.ofNat 32 n.val).toNat = n.val := by
  rw [BitVec.toNat_ofNat]
  exact Nat.mod_eq_of_lt (by have := n.isLt; omega)

private theorem word_small (n : Fin 65536) : (BitVec.ofNat 32 n.val).toNat < 2 ^ 31 := by
  rw [toNat_word]; have := n.isLt; omega

/-- Such a word is not negative as a signed number … -/
private theorem not_neg (n : Fin 65536) : IntOp.cmpi .slt (BitVec.ofNat 32 n.val) 0#32 = 0#1 := by
  refine eq_zero_of_ne_one fun h => ?_
  have h0 : (0#32 : BitVec 32).toNat < 2 ^ 31 := by decide
  exact Nat.not_lt_zero _ ((StableHlo.Predicate.slt_iff_toNat (word_small n) h0).1 h)

/-- … it is at least 0 … -/
private theorem ge_zero (n : Fin 65536) : IntOp.cmpi .sge (BitVec.ofNat 32 n.val) 0#32 = 1#1 := by
  have h0 : (0#32 : BitVec 32).toNat < 2 ^ 31 := by decide
  exact (StableHlo.Predicate.sge_iff_toNat (word_small n) h0).2 (Nat.zero_le _)

/-- … and at most 65535. -/
private theorem le_max (n : Fin 65536) : IntOp.cmpi .sle (BitVec.ofNat 32 n.val) 65535#32 = 1#1 := by
  have h0 : (65535#32 : BitVec 32).toNat < 2 ^ 31 := by decide
  refine (StableHlo.Predicate.sle_iff_toNat (word_small n) h0).2 ?_
  rw [toNat_word]
  show n.val ≤ 65535
  have := n.isLt; omega

/-- Read signed, it is its own number. -/
private theorem toInt_word (n : Fin 65536) : (BitVec.ofNat 32 n.val).toInt.toNat = n.val := by
  rw [StableHlo.Predicate.toInt_ofNat_small n.val (by have := n.isLt; omega)]
  exact Int.toNat_natCast _

/-- A fold over a one-element range is one application, to the one element and the initial value. -/
private theorem fold_one {α : Type} (op : α → α → α) [Std.Commutative op] [Std.Associative op] (b : α) (f : Fin 1 → α) :
    (Finset.univ : Finset (Fin 1)).fold op b f = op (f 0) b := by
  rw [Finset.univ_unique, Finset.fold_singleton]
  rfl

/-! ### The wrapped index and its range test -/

section Joint
variable (B : Fin 512) (p : Fin 30) (k : Fin 17) (n : Fin 65536)
  (hn : (x1 : S512x30x17x2.Idx → BitVec 32) (ix4 B p k (0 : Fin 2)) = BitVec.ofNat 32 n.val)
include hn

/-- Nothing wraps: the index after the negative-index correction is the index. -/
private theorem wrapped_eq : val_main_call0_v4 (F := Ideal) x1 (ix2 B (joint p k)) = BitVec.ofNat 32 n.val := by
  rw [val_main_call0_v4_apply, val_main_call0_v1_apply, val_main_call0_v0_apply, val_main_call0_c_apply, word_eq, hn,
    not_neg, select_zero]

omit hn in
/-- Entry (B, J, 0) of the 512 × 510 × 1 array is entry (B, J) of the 512 × 510 array. -/
private theorem col_idx (J : Fin 510) : idx_main_call0_v5 (ix3 B J (0 : Fin 1)) = ix2 B J := by
  funext a
  refine Fin.ext ?_
  have hJ := J.isLt
  match a with
  | ⟨0, _⟩ => show ((B.val * 510 + J.val) * 1 + 0) / 510 = B.val; omega
  | ⟨1, _⟩ => show ((B.val * 510 + J.val) * 1 + 0) % 510 = J.val; omega

/-- The index as the gather reads it, from the 512 × 510 × 1 array. -/
private theorem start_eq : val_main_call0_v5 (F := Ideal) x1 (ix3 B (joint p k) (0 : Fin 1)) = BitVec.ofNat 32 n.val := by
  rw [val_main_call0_v5_apply, col_idx, wrapped_eq x1 B p k n hn]

/-- Both range tests pass at the joint. -/
private theorem test_eq : val_main_call0_v11 (F := Ideal) x1 (ix3 B (joint p k) (0 : Fin 1)) = 1#1 := by
  rw [val_main_call0_v11_apply, val_main_call0_v7_apply, val_main_call0_v10_apply, val_main_call0_v6_apply,
    val_main_call0_c_2_apply, val_main_call0_v9_apply, val_main_call0_v8_apply, val_main_call0_c_1_apply,
    start_eq x1 B p k n hn, ge_zero, le_max]
  rfl

/-- The and-reduction over the one-element last axis is the one test, so it passes too. -/
private theorem inRange_eq : val_main_call0_v12 (F := Ideal) x1 (ix2 B (joint p k)) = 1#1 := by
  unfold val_main_call0_v12
  have h : S512x510x1.Reduces [2] S512x510 := by decide
  refine (Host.reduce_eq_fold_single IntOp.andi _ _ reducesTo_S512x510x1_S512x510_d2 h h_S_ _).trans
    ((fold_one IntOp.andi _ _).trans ?_)
  have hl : h.lift (ix2 B (joint p k)) (0 : Fin 1) = ix3 B (joint p k) (0 : Fin 1) := by
    funext c
    refine Fin.ext ?_
    match c with
    | ⟨0, _⟩ => rfl
    | ⟨1, _⟩ => rfl
    | ⟨2, _⟩ => rfl
  show IntOp.andi (val_main_call0_v11 (F := Ideal) x1 (h.lift (ix2 B (joint p k)) (0 : Fin 1))) _ = 1#1
  rw [hl, test_eq x1 B p k n hn]
  rfl

end Joint

/-! ### The gather, read at an index -/

/-- The gather's result at (B, J): the operand at row B and at location m, where m is the start index of (B, J, 0)
    read signed and clamped into [0, 65535]. Row B because axis 0 is the batch axis of both arrays; the start index
    lands on axis 1, which the slice of size 1 collapses. -/
private theorem gather_apply {α : Type} (x : S512x65536.Idx → α) (idx : IVec S512x510x1 32) (B : Fin 512) (J : Fin 510)
    (m : Fin 65536) (hm : min (idx (ix3 B J (0 : Fin 1))).toInt.toNat 65535 = m.val) :
    Host.gather gather_S512x65536_S512x510x1_S512x510_n_1_0_0_1_2_11 x idx (ix2 B J) = x (ix2 B m) := by
  unfold Host.gather
  congr 1
  funext a
  refine Fin.ext ?_
  match a with
  | ⟨0, _⟩ =>
    show gather_S512x65536_S512x510x1_S512x510_n_1_0_0_1_2_11.start (ix2 B J) idx 0
      + gather_S512x65536_S512x510x1_S512x510_n_1_0_0_1_2_11.batchCoord (ix2 B J) 0
      + gather_S512x65536_S512x510x1_S512x510_n_1_0_0_1_2_11.offCoord (ix2 B J) 0 = B.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show gather_S512x65536_S512x510x1_S512x510_n_1_0_0_1_2_11.start (ix2 B J) idx 1
      + gather_S512x65536_S512x510x1_S512x510_n_1_0_0_1_2_11.batchCoord (ix2 B J) 1
      + gather_S512x65536_S512x510x1_S512x510_n_1_0_0_1_2_11.offCoord (ix2 B J) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S512x65536_S512x510x1_S512x510_n_1_0_0_1_2_11.startIndexMap from
      List.mem_singleton.mpr rfl)]
    have hsi : gather_S512x65536_S512x510x1_S512x510_n_1_0_0_1_2_11.siIdx (ix2 B J)
        ⟨List.idxOf (1 : Fin 2) gather_S512x65536_S512x510x1_S512x510_n_1_0_0_1_2_11.startIndexMap,
          List.idxOf_lt_length_iff.2 (List.mem_singleton.mpr rfl)⟩ = ix3 B J (0 : Fin 1) := by
      funext b
      refine Fin.ext ?_
      match b with
      | ⟨0, _⟩ => rfl
      | ⟨1, _⟩ => rfl
      | ⟨2, _⟩ => rfl
    rw [hsi]
    exact hm

/-! ### The gathered tag -/

/-- Row B, location n of the 512 × 65536 array of tags is the argument's entry (B, n, 0). -/
private theorem tag_idx (B : Fin 512) (n : Fin 65536) : idx_main_v7 (ix2 B n) = ix3 B n (0 : Fin 1) := by
  funext a
  refine Fin.ext ?_
  have hn := n.isLt
  match a with
  | ⟨0, _⟩ => show (B.val * 65536 + n.val) / 65536 = B.val; omega
  | ⟨1, _⟩ => show (B.val * 65536 + n.val) / 1 % 65536 = n.val; omega
  | ⟨2, _⟩ => rfl

/-- The gathered tag of joint `k` of person `p` in row `B`, when the joint's location index is the word of `n`. -/
theorem gathered_eq (B : Fin 512) (p : Fin 30) (k : Fin 17) (n : Fin 65536)
    (hn : (x1 : S512x30x17x2.Idx → BitVec 32) (ix4 B p k (0 : Fin 2)) = BitVec.ofNat 32 n.val) :
    (val_main_v10 (F := Ideal) x0 x1 : S512x30x17.Idx → EReal) (ix3 B p k) = (x0 : S512x65536x1.Idx → EReal) (ix3 B n (0 : Fin 1)) := by
  rw [val_main_v10_apply, idx_joint, val_main_v9_apply, inRange_eq x1 B p k n hn, select_one]
  unfold val_main_call0_v13
  have hm : min (val_main_call0_v5 (F := Ideal) x1 (ix3 B (joint p k) (0 : Fin 1))).toInt.toNat 65535 = n.val := by
    rw [start_eq x1 B p k n hn, toInt_word]
    have := n.isLt; omega
  rw [gather_apply _ _ B (joint p k) n hm, val_main_v7_apply, tag_idx]

/-! ### The weights -/

/-- The flag of joint (B, p, k): the second word of its entry. -/
private theorem idx_flag (B : Fin 512) (p : Fin 30) (k : Fin 17) :
    idx_main_v2 (idx_main_v3 (ix3 B p k)) = ix4 B p k (1 : Fin 2) := by
  funext a
  refine Fin.ext ?_
  match a with
  | ⟨0, _⟩ => exact flat_div B.val p.val k.val p.isLt k.isLt
  | ⟨1, _⟩ => exact flat_mid B.val p.val k.val p.isLt k.isLt
  | ⟨2, _⟩ => exact flat_low B.val p.val k.val p.isLt k.isLt
  | ⟨3, _⟩ => rfl

/-- The weight of joint `k` of person `p` in row `B`. -/
theorem weights_eq (B : Fin 512) (p : Fin 30) (k : Fin 17) :
    (val_main_v6 (F := Ideal) x1 : S512x30x17.Idx → EReal) (ix3 B p k) = flagWeight ((x1 : S512x30x17x2.Idx → BitVec 32) (ix4 B p k (1 : Fin 2))) := by
  rw [val_main_v6_apply, val_main_v5_apply, val_main_v3_apply, val_main_v2_apply, val_main_v4_apply, val_main_c_apply, idx_flag]
  rfl

end Cert.ReferenceIdeal.Tags

end
-- ==== Proof.RStages.lean ====
/-
  The reference's per-person stages read at an index: each person's mean tag, its spread and its presence, as the
  row functions of the specification applied to the row's gathered tags and weights.
-/
import proofs.«405738_j66889820668447_3_alg».proof.Proof.RefReadP
import proofs.«405738_j66889820668447_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stages

open Cert.ReferenceIdeal Cert.ReferenceIdeal.Gen Cert.ReferenceIdeal.ReadP Cert.AssocEmbed Idealize.ShloMosaic Idealize.ShloMosaic.ValueIdx

variable (x0 : (⟨S512x65536x1, .f32⟩ : BufTy).Contents (Elt Ideal)) (x1 : (⟨S512x30x17x2, .i32⟩ : BufTy).Contents (Elt Ideal))

/-- Row `B`'s gathered tags, by person and joint. -/
abbrev rowTags (B : Fin 512) : Fin 30 → Fin 17 → EReal := fun p k => (val_main_v10 (F := Ideal) x0 x1 : S512x30x17.Idx → EReal) (ix3 B p k)

/-- Row `B`'s weights, by person and joint. -/
abbrev rowWeights (B : Fin 512) : Fin 30 → Fin 17 → EReal := fun p k => (val_main_v6 (F := Ideal) x1 : S512x30x17.Idx → EReal) (ix3 B p k)

/-- The count's summing index of person `(B, p)` at joint `k` is `(B, p, k)`. -/
private theorem idx11_eq (B : Fin 512) (p : Fin 30) (k : Fin 17) : idx_main_v11 (ix2 B p) k = ix3 B p k :=
  funext fun a => Fin.ext (by match a with | ⟨0, _⟩ => rfl | ⟨1, _⟩ => rfl | ⟨2, _⟩ => rfl)

/-- The weighted tag sum's summing index of person `(B, p)` at joint `k` is `(B, p, k)`. -/
private theorem idx15_eq (B : Fin 512) (p : Fin 30) (k : Fin 17) : idx_main_v15 (ix2 B p) k = ix3 B p k :=
  funext fun a => Fin.ext (by match a with | ⟨0, _⟩ => rfl | ⟨1, _⟩ => rfl | ⟨2, _⟩ => rfl)

/-- The weighted deviation sum's summing index of person `(B, p)` at joint `k` is `(B, p, k)`. -/
private theorem idx22_eq (B : Fin 512) (p : Fin 30) (k : Fin 17) : idx_main_v22 (ix2 B p) k = ix3 B p k :=
  funext fun a => Fin.ext (by match a with | ⟨0, _⟩ => rfl | ⟨1, _⟩ => rfl | ⟨2, _⟩ => rfl)

/-- The mean's column, broadcast along the joints and read at `(B, p, k)`, reads the mean at `(B, p)`. -/
private theorem idx17_18_eq (B : Fin 512) (p : Fin 30) (k : Fin 17) : idx_main_v17 (idx_main_v18 (ix3 B p k)) = ix2 B p :=
  funext fun a => Fin.ext (by match a with | ⟨0, _⟩ => rfl | ⟨1, _⟩ => rfl)

/-- Person `p`'s count in row `B`: the sum of its weights, the sum's initial value being the number 0. -/
private theorem count_eq (B : Fin 512) (p : Fin 30) :
    (val_main_v11 (F := Ideal) x1 : S512x30.Idx → EReal) (ix2 B p) = count (rowWeights x1 B) p := by
  refine (val_main_v11_apply x1 (ix2 B p)).trans ?_
  show Ideal.ofBits .f32 0x00000000#32 + _ = _
  rw [Ideal.ofBits_zero_f32, zero_add]
  unfold AssocEmbed.count
  exact Finset.sum_congr rfl fun k _ => congrArg _ (idx11_eq B p k)

/-- Person `p`'s divisor in row `B`: the larger of its count and the constant one. -/
private theorem divisor_eq (B : Fin 512) (p : Fin 30) :
    (val_main_v13 (F := Ideal) x1 : S512x30.Idx → EReal) (ix2 B p) = divisor (rowWeights x1 B) p := by
  refine (val_main_v13_apply x1 (ix2 B p)).trans ?_
  rw [val_main_v12_apply, val_main_cst_0_apply, Ideal.maximumf_def, Ideal.ofBits_def, count_eq]
  rfl

/-- Person `p`'s mean tag in row `B`. -/
theorem mean_eq (B : Fin 512) (p : Fin 30) :
    (val_main_v16 (F := Ideal) x0 x1 : S512x30.Idx → EReal) (ix2 B p) = mean (rowTags x0 x1 B) (rowWeights x1 B) p := by
  refine (val_main_v16_apply x0 x1 (ix2 B p)).trans ?_
  rw [Ideal.hostDivf_def, divisor_eq]
  unfold mean
  refine congrArg (Ideal.div · _) ?_
  refine (val_main_v15_apply x0 x1 (ix2 B p)).trans ?_
  show Ideal.ofBits .f32 0x00000000#32 + _ = _
  rw [Ideal.ofBits_zero_f32, zero_add]
  refine Finset.sum_congr rfl fun k _ => ?_
  rw [idx15_eq]
  rfl

/-- The mean's broadcast column read at `(B, p, k)` is person `p`'s mean tag. -/
private theorem meanColumn_eq (B : Fin 512) (p : Fin 30) (k : Fin 17) :
    (val_main_v18 (F := Ideal) x0 x1 : S512x30x17.Idx → EReal) (ix3 B p k) = mean (rowTags x0 x1 B) (rowWeights x1 B) p := by
  refine (val_main_v18_apply x0 x1 (ix3 B p k)).trans ?_
  refine (val_main_v17_apply x0 x1 _).trans ?_
  rw [idx17_18_eq]
  exact mean_eq x0 x1 B p

/-- Person `p`'s spread in row `B`. -/
theorem spread_eq (B : Fin 512) (p : Fin 30) :
    (val_main_v23 (F := Ideal) x0 x1 : S512x30.Idx → EReal) (ix2 B p) = spread (rowTags x0 x1 B) (rowWeights x1 B) p := by
  refine (val_main_v23_apply x0 x1 (ix2 B p)).trans ?_
  rw [Ideal.hostDivf_def, divisor_eq]
  unfold spread
  refine congrArg (Ideal.div · _) ?_
  refine (val_main_v22_apply x0 x1 (ix2 B p)).trans ?_
  show Ideal.ofBits .f32 0x00000000#32 + _ = _
  rw [Ideal.ofBits_zero_f32, zero_add]
  refine Finset.sum_congr rfl fun k _ => ?_
  rw [idx22_eq, val_main_v21_apply, val_main_v20_apply, val_main_v19_apply, meanColumn_eq]
  rfl

/-- Person `p`'s presence in row `B`. -/
theorem present_eq (B : Fin 512) (p : Fin 30) :
    (val_main_v26 (F := Ideal) x1 : S512x30.Idx → EReal) (ix2 B p) = present (rowWeights x1 B) p := by
  refine (val_main_v26_apply x1 (ix2 B p)).trans ?_
  rw [val_main_v25_apply, val_main_v24_apply, val_main_cst_3_apply, Ideal.ofBits_def, Ideal.ofBits_zero_f32,
    Ideal.cmpf_def, count_eq]
  rfl

end Cert.ReferenceIdeal.Stages

end
-- ==== Proof.RRow.lean ====
/-
  The reference's per-row stages read at an index, over the per-person stages before them: the pull term, the halved
  push term (its pair sum is one reduction over both person axes, read as the double sum), and the result's two
  columns.
-/
import proofs.«405738_j66889820668447_3_alg».proof.Proof.RefReadP
import proofs.«405738_j66889820668447_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import proofs.«405738_j66889820668447_3_alg».proof.Proof.LibPair

noncomputable section

namespace Cert.ReferenceIdeal.Row

open Cert.ReferenceIdeal Cert.ReferenceIdeal.Gen Cert.ReferenceIdeal.ReadP Cert.AssocEmbed Idealize.ShloMosaic Idealize.ShloMosaic.ValueIdx

variable (x0 : (⟨S512x65536x1, .f32⟩ : BufTy).Contents (Elt Ideal)) (x1 : (⟨S512x30x17x2, .i32⟩ : BufTy).Contents (Elt Ideal))

/-- Row `B`'s per-person means, spreads and presence floats. -/
abbrev rowMean (B : Fin 512) : Fin 30 → EReal := fun p => (val_main_v16 (F := Ideal) x0 x1 : S512x30.Idx → EReal) (ix2 B p)
abbrev rowSpread (B : Fin 512) : Fin 30 → EReal := fun p => (val_main_v23 (F := Ideal) x0 x1 : S512x30.Idx → EReal) (ix2 B p)
abbrev rowPresent (B : Fin 512) : Fin 30 → EReal := fun p => (val_main_v26 (F := Ideal) x1 : S512x30.Idx → EReal) (ix2 B p)

/-- The zero word is the number 0. -/
private theorem zero_word : FloatOps.ofBits (F := Ideal) .f32 0x00000000#32 = (0 : EReal) := Ideal.ofBits_zero_f32

/-- The word of the float 1 is the number 1 (sign 0, biased exponent 127, fraction 0). -/
private theorem one_word : FloatOps.ofBits (F := Ideal) .f32 0x3F800000#32 = (1 : EReal) := by
  show Ideal.ofBits .f32 0x3F800000#32 = 1
  simp [Ideal.ofBits, Ideal.ieee, -EReal.coe_mul]; norm_num

/-- Row `B`'s headcount: the sum of its presence floats. -/
private theorem headcount_eq (B : Fin 512) :
    (val_main_v27 (F := Ideal) x1 : S512.Idx → EReal) (ix1 B) = headcount (rowPresent x1 B) := by
  rw [val_main_v27_apply, val_main_cst_4_apply, zero_word, zero_add]
  unfold headcount
  refine Finset.sum_congr rfl fun k _ => ?_
  exact congrArg (val_main_v26 (F := Ideal) x1) (funext fun a => Fin.ext (by match a with | ⟨0, _⟩ => rfl | ⟨1, _⟩ => rfl))

/-- The pull term of row `B`. -/
theorem pull_eq (B : Fin 512) :
    (val_main_v35 (F := Ideal) x0 x1 : S512.Idx → EReal) (ix1 B) = pull (rowSpread x0 x1 B) (rowPresent x1 B) := by
  rw [val_main_v35_apply, val_main_v29_apply, val_main_v34_apply, val_main_call1_v1_apply, val_main_call1_v0_apply,
    val_main_cst_8_apply, val_main_v28_apply, val_main_cst_5_apply, val_main_v33_apply, val_main_v32_apply,
    val_main_cst_7_apply, val_main_v31_apply, val_main_cst_6_apply, zero_word, zero_add, headcount_eq]
  have hsum : (∑ k : Fin 30, (val_main_v30 (F := Ideal) x0 x1 : S512x30.Idx → EReal) (idx_main_v31 (ix1 B) k))
      = ∑ p : Fin 30, rowSpread x0 x1 B p * rowPresent x1 B p := by
    refine Finset.sum_congr rfl fun k _ => ?_
    have hi : idx_main_v31 (ix1 B) k = ix2 B k :=
      funext fun a => Fin.ext (by match a with | ⟨0, _⟩ => rfl | ⟨1, _⟩ => rfl)
    rw [hi, val_main_v30_apply]; rfl
  rw [hsum]; rfl

/-- The upper triangle: 1 at (p, q) exactly when p < q. The program compares the words of p + 0 and q signed; both are
    below 30, so the comparison is the numbers'. -/
private theorem triangle (p q : Fin 30) :
    (val_main_v42 (F := Ideal) : S30x30.Idx → EReal) (ix2 p q) = if p.val < q.val then 1 else 0 := by
  rw [val_main_v42_apply, val_main_call2_v4_apply, val_main_call2_v2_apply, val_main_call2_v0_apply,
    val_main_call2_v1_apply, val_main_call2_c_apply, val_main_call2_v3_apply, val_main_call2_v5_apply,
    val_main_call2_cst_apply, val_main_v41_apply, val_main_cst_9_apply, zero_word, one_word]
  show Scalar.select (IntOp.cmpi .sge (IntOp.addi (BitVec.ofNat 32 p.val) 0#32) (BitVec.ofNat 32 q.val)) (0 : EReal) 1 = _
  have hadd : IntOp.addi (BitVec.ofNat 32 p.val) 0#32 = BitVec.ofNat 32 p.val := BitVec.add_zero _
  rw [hadd]
  have hp : (BitVec.ofNat 32 p.val).toNat = p.val := by
    rw [BitVec.toNat_ofNat]; exact Nat.mod_eq_of_lt (by have := p.isLt; omega)
  have hq : (BitVec.ofNat 32 q.val).toNat = q.val := by
    rw [BitVec.toNat_ofNat]; exact Nat.mod_eq_of_lt (by have := q.isLt; omega)
  have hp' : (BitVec.ofNat 32 p.val).toNat < 2 ^ 31 := by rw [hp]; have := p.isLt; omega
  have hq' : (BitVec.ofNat 32 q.val).toNat < 2 ^ 31 := by rw [hq]; have := q.isLt; omega
  have hiff := StableHlo.Predicate.sge_iff_toNat hp' hq'
  rw [hp, hq] at hiff
  by_cases h : p.val < q.val
  · rw [if_pos h]
    have hne : IntOp.cmpi .sge (BitVec.ofNat 32 p.val) (BitVec.ofNat 32 q.val) ≠ 1#1 := fun hc => by
      have := hiff.mp hc; omega
    exact if_neg hne
  · rw [if_neg h, hiff.mpr (by omega)]; exact select_one _ _

/-- One pair's term of row `B`: the two broadcasts of the means read persons p and q, the presence product and the
    triangle likewise. -/
private theorem pair_eq (B : Fin 512) (p q : Fin 30) :
    (val_main_v54 (F := Ideal) x0 x1 : S512x30x30.Idx → EReal) (ix3 B p q)
      = pairTerm (rowMean x0 x1 B) (rowPresent x1 B) p q := by
  rw [val_main_v54_apply, val_main_v53_apply, val_main_v52_apply, val_main_v51_apply, val_main_v40_apply,
    val_main_v38_apply, val_main_v36_apply, val_main_v39_apply, val_main_v37_apply, val_main_v50_apply,
    val_main_v47_apply, val_main_v45_apply, val_main_v43_apply, val_main_v46_apply, val_main_v44_apply,
    val_main_v49_apply, val_main_v48_apply]
  have h1 : idx_main_v36 (idx_main_v38 (ix3 B p q)) = ix2 B p :=
    funext fun a => Fin.ext (by match a with | ⟨0, _⟩ => rfl | ⟨1, _⟩ => rfl)
  have h2 : idx_main_v37 (idx_main_v39 (ix3 B p q)) = ix2 B q :=
    funext fun a => Fin.ext (by match a with | ⟨0, _⟩ => rfl | ⟨1, _⟩ => rfl)
  have h3 : idx_main_v43 (idx_main_v45 (ix3 B p q)) = ix2 B p :=
    funext fun a => Fin.ext (by match a with | ⟨0, _⟩ => rfl | ⟨1, _⟩ => rfl)
  have h4 : idx_main_v44 (idx_main_v46 (ix3 B p q)) = ix2 B q :=
    funext fun a => Fin.ext (by match a with | ⟨0, _⟩ => rfl | ⟨1, _⟩ => rfl)
  have h5 : idx_main_v48 (idx_main_v49 (ix3 B p q)) = ix2 p q :=
    funext fun a => Fin.ext (by match a with | ⟨0, _⟩ => rfl | ⟨1, _⟩ => rfl)
  rw [h1, h2, h3, h4, h5, triangle]
  rfl

/-- A sum over the indices of 512 × 30 × 30 whose first coordinate is `B` is the double sum over the two person
    coordinates: (p, q) ↦ (B, p, q) is a bijection onto those indices. -/
private theorem sum_row (h : S512x30x30.ReducesTo [1, 2] S512) (f : S512x30x30.Idx → EReal) (B : Fin 512) :
    ∑ i ∈ Finset.univ.filter (fun i => h.drop i = ix1 B), f i = ∑ p : Fin 30, ∑ q : Fin 30, f (ix3 B p q) := by
  rw [← Finset.sum_product']
  have hdrop : ∀ i : S512x30x30.Idx, (h.drop i 0 : Nat) = (i 0 : Nat) := fun i => Shape.ReducesTo.drop_apply_val h i 0
  have hback : ∀ i : S512x30x30.Idx, h.drop i = ix1 B → ix3 B (i 1) (i 2) = i := fun i hi => by
    have h0 : (i 0 : Nat) = B.val := by rw [← hdrop i, hi]
    funext c
    match c with
    | ⟨0, _⟩ => exact Fin.ext h0.symm
    | ⟨1, _⟩ => rfl
    | ⟨2, _⟩ => rfl
  refine Finset.sum_nbij' (fun i => (i 1, i 2)) (fun pq => ix3 B pq.1 pq.2) ?_ ?_ ?_ ?_ ?_
  · intro i _; exact Finset.mem_product.mpr ⟨Finset.mem_univ _, Finset.mem_univ _⟩
  · intro pq _
    refine Finset.mem_filter.mpr ⟨Finset.mem_univ _, ?_⟩
    funext b
    match b with
    | ⟨0, _⟩ => exact Fin.ext (hdrop (ix3 B pq.1 pq.2))
  · intro i hi; exact hback i (Finset.mem_filter.mp hi).2
  · intro pq _; rfl
  · intro i hi; exact congrArg f (hback i (Finset.mem_filter.mp hi).2).symm

/-- Row `B`'s pair sum: the sum over both person axes, read as the double sum of the pairs' terms. -/
private theorem pairSum_eq (B : Fin 512) :
    (val_main_v55 (F := Ideal) x0 x1 : S512.Idx → EReal) (ix1 B) = pairSum (rowMean x0 x1 B) (rowPresent x1 B) := by
  unfold val_main_v55
  simp only [Host.reduceAdd, Ideal.hostReduceAdd_def]
  unfold Ideal.hostReduceAdd
  rw [val_main_cst_10_apply, zero_word, zero_add, sum_row]
  unfold pairSum
  exact Finset.sum_congr rfl fun p _ => Finset.sum_congr rfl fun q _ => pair_eq x0 x1 B p q

/-- The halved push term of row `B`. -/
theorem push_eq (B : Fin 512) :
    (val_main_v68 (F := Ideal) x0 x1 : S512.Idx → EReal) (ix1 B) = pushRaw (rowMean x0 x1 B) (rowPresent x1 B) * half := by
  rw [val_main_v68_apply, val_main_v66_apply, val_main_v62_apply, val_main_v65_apply, val_main_v64_apply,
    val_main_v60_apply, val_main_v58_apply, val_main_v57_apply, val_main_v56_apply, val_main_cst_11_apply,
    val_main_v59_apply, val_main_cst_12_apply, val_main_v61_apply, val_main_cst_13_apply, val_main_v63_apply,
    val_main_cst_14_apply, val_main_v67_apply, val_main_cst_15_apply, headcount_eq, pairSum_eq]
  rfl

/-- The result's row `B`: the halved push term at column 0, the pull term at column 1. -/
theorem result_eq (B : Fin 512) (j : Fin 2) :
    (val_main_v71 (F := Ideal) x0 x1 : S512x2.Idx → EReal) (ix2 B j)
      = if j.val = 0 then (val_main_v68 (F := Ideal) x0 x1 : S512.Idx → EReal) (ix1 B) else (val_main_v35 (F := Ideal) x0 x1 : S512.Idx → EReal) (ix1 B) := by
  unfold val_main_v71
  refine (Cert.LibPair.concat_cols_apply (n := 512) (val_main_v69 (F := Ideal) x0 x1) (val_main_v70 (F := Ideal) x0 x1)
    concatenates_S512x1_S512x1_S512x2_d1 B j).trans ?_
  have h69 : idx_main_v69 (ix2 B (0 : Fin 1)) = ix1 B := funext fun a => Fin.ext (by match a with | ⟨0, _⟩ => rfl)
  have h70 : idx_main_v70 (ix2 B (0 : Fin 1)) = ix1 B := funext fun a => Fin.ext (by match a with | ⟨0, _⟩ => rfl)
  rw [val_main_v69_apply, val_main_v70_apply, h69, h70]

end Cert.ReferenceIdeal.Row

end
-- ==== Proof.RFinal.lean ====
/-
  The reference's result is the specification's result of its two argument arrays, when every location index is in
  range: row by row, its two columns are the halved push term and the pull term of the row's per-person stages,
  which are the specification's functions of the row's gathered tags and weights, and for an index in range the
  gathered tag is the tag at that location.
-/
import proofs.«405738_j66889820668447_3_alg».proof.Proof.RefReadP
import proofs.«405738_j66889820668447_3_alg».proof.Proof.RGather
import proofs.«405738_j66889820668447_3_alg».proof.Proof.RStages
import proofs.«405738_j66889820668447_3_alg».proof.Proof.RRow
import proofs.«405738_j66889820668447_3_alg».proof.Proof.Result
import Idealize.ShloMosaic.Lib.ValueIdx

noncomputable section

namespace Cert.ReferenceIdeal.Final

open Cert.ReferenceIdeal Cert.ReferenceIdeal.Gen Cert.ReferenceIdeal.ReadP Cert.AssocEmbed Idealize.ShloMosaic Idealize.ShloMosaic.ValueIdx

/-- The last stage of the reference, as a whole array, is the specification's result. -/
theorem value_eq (x0 : (⟨S512x65536x1, .f32⟩ : BufTy).Contents (Elt Ideal)) (x1 : (⟨S512x30x17x2, .i32⟩ : BufTy).Contents (Elt Ideal))
    (hr : ∀ (B : Fin 512) (p : Fin 30) (k : Fin 17),
      ∃ n : Fin 65536, (x1 : S512x30x17x2.Idx → BitVec 32) (ix4 B p k (0 : Fin 2)) = BitVec.ofNat 32 n.val) :
    (val_main_v71 (F := Ideal) x0 x1 : S512x2.Idx → EReal) = result x0 x1 := by
  funext i
  obtain ⟨B, j, rfl⟩ : ∃ (B : Fin 512) (j : Fin 2), i = ix2 B j := ⟨i 0, i 1, eq_ix2 i⟩
  rw [Row.result_eq, result_apply]
  unfold loss
  have hg : Stages.rowTags x0 x1 B = tagAt x0 x1 B := funext fun p => funext fun k => by
    obtain ⟨n, hn⟩ := hr B p k
    exact (Tags.gathered_eq x0 x1 B p k n hn).trans (tagAt_of_word x0 x1 B p k n hn).symm
  have hw : Stages.rowWeights x1 B = weightAt x1 B := funext fun p => funext fun k => Tags.weights_eq x1 B p k
  have hμ : Row.rowMean x0 x1 B = mean (tagAt x0 x1 B) (weightAt x1 B) :=
    funext fun p => (Stages.mean_eq x0 x1 B p).trans (by rw [hg, hw])
  have hs : Row.rowSpread x0 x1 B = spread (tagAt x0 x1 B) (weightAt x1 B) :=
    funext fun p => (Stages.spread_eq x0 x1 B p).trans (by rw [hg, hw])
  have hv : Row.rowPresent x1 B = present (weightAt x1 B) :=
    funext fun p => (Stages.present_eq x1 B p).trans (by rw [hw])
  by_cases hj : j.val = 0
  · rw [if_pos hj, if_pos hj, Row.push_eq, hμ, hv]
  · rw [if_neg hj, if_neg hj, Row.pull_eq, hs, hv]

end Cert.ReferenceIdeal.Final

end
-- ==== Proof.lean ====
/-
  The certificate of the associative-embedding loss kernel against its jnp reference.

  Both programs compute, for each of 512 rows, the pair (push, pull) of the row's gathered tags and joint weights
  (Proof/Spec.lean). They differ in how a joint's tag is gathered. The reference indexes the row's 65536 tags directly
  (`take_along_axis`). The kernel views the row as a 256 × 256 heat map, splits each index into a row coordinate
  (the quotient by 256) and a column coordinate (the remainder), selects the heat-map row by a one-hot matrix
  product and the entry in it by a one-hot masked sum. For an index `n` with `0 ≤ n < 65536` both read the tag at
  location `n`: the one-hot sums have exactly one nonzero term, and `256 (n / 256) + n % 256 = n`. Outside that range
  the reference wraps or fills a not-a-number while the kernel reads zero, so the precondition asks the indices to
  be in range. No other law is needed: from the gathered tags on, the two programs apply the same operations, the
  kernel summing the pair terms over one axis and then the other where the reference sums over both at once.
  The frames of the two kernel programs are the generated ones; the reference's frame and value come from its run
  read back (Proof/RefRunP.lean, Proof/RefReadP.lean); the idealization rewrote nothing, so `preserves` is trivial.
-/
import proofs.«405738_j66889820668447_3_alg».proof.Defs
import proofs.«405738_j66889820668447_3_alg».proof.Proof.Gen.Kernel
import proofs.«405738_j66889820668447_3_alg».proof.Proof.Gen.Kernel.Skeleton
import proofs.«405738_j66889820668447_3_alg».proof.Proof.Gen.Kernel.Launch
import proofs.«405738_j66889820668447_3_alg».proof.Proof.Gen.Kernel.Points
import proofs.«405738_j66889820668447_3_alg».proof.Proof.Gen.Kernel.Frame
import proofs.«405738_j66889820668447_3_alg».proof.Proof.Gen.KernelIdeal
import proofs.«405738_j66889820668447_3_alg».proof.Proof.Gen.KernelIdeal.Skeleton
import proofs.«405738_j66889820668447_3_alg».proof.Proof.Gen.KernelIdeal.Launch
import proofs.«405738_j66889820668447_3_alg».proof.Proof.Gen.KernelIdeal.Points
import proofs.«405738_j66889820668447_3_alg».proof.Proof.Gen.KernelIdeal.Frame
import proofs.«405738_j66889820668447_3_alg».proof.Proof.Gen.ReferenceIdeal
import proofs.«405738_j66889820668447_3_alg».proof.Proof.Gen.Pre_finite_inputs
import proofs.«405738_j66889820668447_3_alg».proof.Proof.Gen.KernelIdeal.Value
import proofs.«405738_j66889820668447_3_alg».proof.Proof.RefReadP
import proofs.«405738_j66889820668447_3_alg».proof.Proof.Pre
import proofs.«405738_j66889820668447_3_alg».proof.Proof.KBlocks
import proofs.«405738_j66889820668447_3_alg».proof.Proof.RFinal
import Idealize.ShloMosaic.Adequacy
import Idealize.ShloMosaic.Init

noncomputable section

namespace Cert.Proof

open Idealize.ShloMosaic Idealize.ShloMosaic.TcCoe Idealize.SL.Sem

/-- Under the precondition every location index of the launch memory is in range. -/
theorem inRange_of_pre (m : (ℓ : Loc Cert.KernelIdeal.nD Cert.KernelIdeal.τ Cert.KernelIdeal.sig) → Buf (Elt Ideal) ℓ)
    (h : Cert.Pre_KernelIdeal m) : Cert.KernelIdeal.Blocks.InRange m :=
  fun c B p k => Cert.Pre_finite_inputs.Decode.index_range (F := Ideal) _ _ (h c) B p k

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the result array at the specification's result of the (agreeing) argument arrays. -/
theorem algebraic : Cert.algebraic_KernelIdeal_ReferenceIdeal := by
  intro m ρ m' ρ' hpre hagree
  have hr : Cert.KernelIdeal.Blocks.InRange m := inRange_of_pre m hpre
  refine ⟨fun c => Cert.KernelIdeal.Blocks.resultOf m c, Cert.KernelIdeal.Blocks.run m ρ hr, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v71_eq, (hagree c).1, (hagree c).2]
  exact Cert.ReferenceIdeal.Final.value_eq _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
